-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_v27_1)) (v3 : (c : Dev Cert.KernelIdeal.nD) → Buf (Elt Ideal) ((c.tc : Thread Cert.KernelIdeal.nD Cert.KernelIdeal.τ).loc Cert.KernelIdeal.main_v27_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_v27_1) = v2 c
          ∧ r.2.mem ((c.tc : Thread Cert.KernelIdeal.nD Cert.KernelIdeal.τ).loc Cert.KernelIdeal.main_v27_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_v93) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S1000000 : Shape := ⟨1, ![1000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_v13 : IVec S_ 1) (main_v16 : IVec S1000000 1) : IVec S_ 1 :=
  let main_c_5 : IVec S_ 1 := constantI S_ 1 1#1
  let main_v17 : IVec S_ 1 := (fun x v => Host.reduce IntOp.andi x v reducesTo_S1000000_S_d0 h_S_) main_v16 main_c_5
  let main_v18 : IVec S_ 1 := andi main_v13 main_v17
  main_v18

def fn {F : FTy → Type} [FloatOps F] (main_arg0 : FVec F S100000x64 .f32) (main_arg1 : FVec F S50000x64 .f32) (main_arg2 : IVec S1000000 32) (main_arg3 : IVec S1000000 32) (main_arg4 : FVec F S1000000 .f32) (main_arg5 : IVec S1000000 32) (main_arg6 : IVec S1000000 32) (main_arg7 : FVec F S1000000 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S1000000 .f32 := Host.absf main_arg4
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S1000000 .f32 := Host.absf main_arg7
  let main_cst_4 : FVec F S_ .f32 := constant S_ .f32 0x7F800000#32
  let main_v15 : FVec F S1000000 .f32 := broadcastInDim S1000000 ![] bcast_S_S1000000 main_cst_4
  let main_v16 : IVec S1000000 1 := cmpf .olt main_v14 main_v15
  fn_part1 (F := F) main_v13 main_v16
-- ==== Kernel.lean ====
abbrev S100000x64 : Shape := ⟨2, ![100000, 64]⟩
abbrev S50000x64 : Shape := ⟨2, ![50000, 64]⟩
abbrev S1000000 : Shape := ⟨1, ![1000000]⟩
abbrev S150000x64 : Shape := ⟨2, ![150000, 64]⟩
abbrev S1000000x1 : Shape := ⟨2, ![1000000, 1]⟩
abbrev S_ : Shape := ⟨0, ![]⟩
abbrev S1000000x64 : Shape := ⟨2, ![1000000, 64]⟩
abbrev S150000x4x64 : Shape := ⟨3, ![150000, 4, 64]⟩
abbrev S3000x64 : Shape := ⟨2, ![3000, 64]⟩
abbrev S3000x4x64 : Shape := ⟨3, ![3000, 4, 64]⟩
abbrev S3000x1x64 : Shape := ⟨3, ![3000, 1, 64]⟩
abbrev S3000x3x64 : Shape := ⟨3, ![3000, 3, 64]⟩

abbrev nBuf : Space → Nat
  | .hbm => 46
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S1000000, .i32⟩
  | .hbm, ⟨3, _⟩ => ⟨S1000000, .i32⟩
  | .hbm, ⟨4, _⟩ => ⟨S1000000, .f32⟩
  | .hbm, ⟨5, _⟩ => ⟨S1000000, .i32⟩
  | .hbm, ⟨6, _⟩ => ⟨S1000000, .i32⟩
  | .hbm, ⟨7, _⟩ => ⟨S1000000, .f32⟩
  | .hbm, ⟨8, _⟩ => ⟨S150000x64, .f32⟩
  | .hbm, ⟨9, _⟩ => ⟨S1000000x1, .f32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x64, .f32⟩
  | .hbm, ⟨19, _⟩ => ⟨S1000000x64, .f32⟩
  | .hbm, ⟨20, _⟩ => ⟨S1000000x64, .f32⟩
  | .hbm, ⟨21, _⟩ => ⟨S_, .f32⟩
  | .hbm, ⟨22, _⟩ => ⟨S150000x64, .f32⟩
  | .hbm, ⟨23, _⟩ => ⟨S1000000x1, .i32⟩
  | .hbm, ⟨24, _⟩ => ⟨S150000x64, .f32⟩
  | .hbm, ⟨25, _⟩ => ⟨S1000000x1, .f32⟩
  | .hbm, ⟨26, _⟩ => ⟨S_, .i32⟩
  | .hbm, ⟨27, _⟩ => ⟨S1000000, .i32⟩
  | .hbm, ⟨28, _⟩ => ⟨S1000000, .i1⟩
  | .hbm, ⟨29, _⟩ => ⟨S_, .i32⟩
  | .hbm, ⟨30, _⟩ => ⟨S1000000, .i32⟩
  | .hbm, ⟨31, _⟩ => ⟨S1000000, .i32⟩
  | .hbm, ⟨32, _⟩ => ⟨S1000000, .i32⟩
  | .hbm, ⟨33, _⟩ => ⟨S1000000x1, .i32⟩
  | .hbm, ⟨34, _⟩ => ⟨S1000000x64, .f32⟩
  | .hbm, ⟨35, _⟩ => ⟨S1000000x64, .f32⟩
  | .hbm, ⟨36, _⟩ => ⟨S1000000x64, .f32⟩
  | .hbm, ⟨37, _⟩ => ⟨S_, .f32⟩
  | .hbm, ⟨38, _⟩ => ⟨S150000x64, .f32⟩
  | .hbm, ⟨39, _⟩ => ⟨S1000000x1, .i32⟩
  | .hbm, ⟨40, _⟩ => ⟨S150000x64, .f32⟩
  | .hbm, ⟨41, _⟩ => ⟨S150000x64, .f32⟩
  | .hbm, ⟨42, _⟩ => ⟨S150000x4x64, .f32⟩
  | .hbm, ⟨43, _⟩ => ⟨S150000x4x64, .f32⟩
  | .hbm, ⟨44, _⟩ => ⟨S100000x64, .f32⟩
  | .hbm, ⟨45, _⟩ => ⟨S50000x64, .f32⟩
  | .local _ .vmem, ⟨0, _⟩ => ⟨S3000x64, .f32⟩
  | .local _ .vmem, ⟨1, _⟩ => ⟨S3000x64, .f32⟩
  | .local _ .vmem, ⟨2, _⟩ => ⟨S3000x64, .f32⟩
  | .local _ .vmem, ⟨3, _⟩ => ⟨S3000x64, .f32⟩
  | .local _ .vmem, ⟨4, _⟩ => ⟨S3000x64, .f32⟩
  | .local _ .vmem, ⟨5, _⟩ => ⟨S3000x64, .f32⟩
  | .local _ .vmem, ⟨6, _⟩ => ⟨S3000x64, .f32⟩
  | .local _ .vmem, ⟨7, _⟩ => ⟨S3000x64, .f32⟩
  | .local _ .vmem, ⟨8, _⟩ => ⟨S3000x4x64, .f32⟩
  | .local _ .vmem, ⟨9, _⟩ => ⟨S3000x4x64, .f32⟩
  | .local _ .vmem, ⟨10, _⟩ => ⟨S3000x4x64, .f32⟩
  | .local _ .vmem, ⟨11, _⟩ => ⟨S3000x4x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27_0 : Ref sig .tc := ⟨.hbm, 41, rfl⟩
abbrev main_v27_1 : Ref sig .tc := ⟨.hbm, 42, rfl⟩
abbrev main_v27_2 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3000x4x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3000x4x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S100000x64_S50000x64_S150000x64_d0 : Shape.Concatenates [S100000x64, S50000x64] S150000x64 0
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S150000x64 : S_.BroadcastsInDim S150000x64 (![] : Fin 0 → Fin S150000x64.rank)
  inb_S3000x64_S3000x64_0_0 : ∀ a, (![0, 0] : Fin 2 → Nat) a + S3000x64.size a ≤ S3000x64.size a
  h_S3000x64 : 0 < S3000x64.numel
  shapeCasts_S3000x64_S3000x64 : S3000x64.ShapeCasts S3000x64
  shapeCasts_S3000x64_S3000x1x64 : S3000x64.ShapeCasts S3000x1x64
  shapeCasts_S3000x1x64_S3000x1x64 : S3000x1x64.ShapeCasts S3000x1x64
  broadcasts_S3000x1x64_S3000x3x64 : S3000x1x64.Broadcasts S3000x3x64
  concatenates_S3000x1x64_S3000x3x64_S3000x4x64_d1 : Shape.Concatenates [S3000x1x64, S3000x3x64] S3000x4x64 1
  inb_S3000x4x64_S3000x4x64_0_0_0 : ∀ a, (![0, 0, 0] : Fin 3 → Nat) a + S3000x4x64.size a ≤ S3000x4x64.size a
  h_S3000x4x64 : 0 < S3000x4x64.numel
  slices_S150000x64_S100000x64_0_0 : S150000x64.Slices ![0, 0] S100000x64
  slices_S150000x64_S50000x64_100000_0 : S150000x64.Slices ![100000, 0] S50000x64
  gather_S150000x64_S1000000x1_S1000000x64_1_0_n_n_0_1_164_wf : GatherDims.WF S150000x64 S1000000x1 S1000000x64 [1] [0] [] [0] [] 1 ![1, 64]
  scatter_S150000x64_S1000000x1_S1000000x64_1_0_0_1_wf : ScatterDims.WF S150000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x64.size a ≤ S150000x64.size a
  hwx0_0 : ∀ i : grid0.Coords, EltTy.bits .f32 = 32 ∨ (Rect.block (s := S150000x64) S3000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x64.size a ≤ S150000x64.size a
  hwx0_1 : ∀ i : grid0.Coords, EltTy.bits .f32 = 32 ∨ (Rect.block (s := S150000x64) S3000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x64.size a ≤ S150000x64.size a
  hwx0_2 : ∀ i : grid0.Coords, EltTy.bits .f32 = 32 ∨ (Rect.block (s := S150000x64) S3000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3000x64.size a ≤ S150000x64.size a
  hwx0_3 : ∀ i : grid0.Coords, EltTy.bits .f32 = 32 ∨ (Rect.block (s := S150000x64) S3000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3000x4x64.size a ≤ S150000x4x64.size a
  hwx0_4 : ∀ i : grid0.Coords, EltTy.bits .f32 = 32 ∨ (Rect.block (s := S150000x4x64) S3000x4x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3000x4x64.size a ≤ S150000x4x64.size a
  hwx0_5 : ∀ i : grid0.Coords, EltTy.bits .f32 = 32 ∨ (Rect.block (s := S150000x4x64) S3000x4x64.size (cc0_transform_5 i) (hinb0_5 i)).WholeWords (EltTy.packing .f32)

variable [Facts₀]

def gather_S150000x64_S1000000x1_S1000000x64_1_0_n_n_0_1_164 : GatherDims S150000x64 S1000000x1 S1000000x64 where
  offsetDims := [1]
  collapsedSliceDims := [0]
  operandBatchingDims := []
  startIndicesBatchingDims := []
  startIndexMap := [0]
  indexVectorDim := 1
  sliceSizes := ![1, 64]
  wf := gather_S150000x64_S1000000x1_S1000000x64_1_0_n_n_0_1_164_wf
def scatter_S150000x64_S1000000x1_S1000000x64_1_0_0_1 : ScatterDims S150000x64 S1000000x1 S1000000x64 where
  updateWindowDims := [1]
  insertedWindowDims := [0]
  scatterDimsToOperandDims := [0]
  indexVectorDim := 1
  wf := scatter_S150000x64_S1000000x1_S1000000x64_1_0_0_1_wf

abbrev win0_0 : Pipeline.Window sig grid0 :=
  Pipeline.Window.ofSpec (Memref.whole main_v0) S3000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S3000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S3000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27_0) S3000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27_1) S3000x4x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v27_2) S3000x4x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S1000000 : Shape := ⟨1, ![1000000]⟩
abbrev S150000x64 : Shape := ⟨2, ![150000, 64]⟩
abbrev S1000000x1 : Shape := ⟨2, ![1000000, 1]⟩
abbrev S_ : Shape := ⟨0, ![]⟩
abbrev S1000000x64 : Shape := ⟨2, ![1000000, 64]⟩
abbrev S150000x1x64 : Shape := ⟨3, ![150000, 1, 64]⟩
abbrev S150000x4x64 : Shape := ⟨3, ![150000, 4, 64]⟩

abbrev nBuf : Space → Nat
  | .hbm => 122
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S1000000, .i32⟩
  | .hbm, ⟨3, _⟩ => ⟨S1000000, .i32⟩
  | .hbm, ⟨4, _⟩ => ⟨S1000000, .f32⟩
  | .hbm, ⟨5, _⟩ => ⟨S1000000, .i32⟩
  | .hbm, ⟨6, _⟩ => ⟨S1000000, .i32⟩
  | .hbm, ⟨7, _⟩ => ⟨S1000000, .f32⟩
  | .hbm, ⟨8, _⟩ => ⟨S150000x64, .f32⟩
  | .hbm, ⟨9, _⟩ => ⟨S1000000x1, .f32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x64, .f32⟩
  | .hbm, ⟨19, _⟩ => ⟨S1000000x64, .f32⟩
  | .hbm, ⟨20, _⟩ => ⟨S1000000x64, .f32⟩
  | .hbm, ⟨21, _⟩ => ⟨S_, .f32⟩
  | .hbm, ⟨22, _⟩ => ⟨S150000x64, .f32⟩
  | .hbm, ⟨23, _⟩ => ⟨S1000000x1, .i32⟩
  | .hbm, ⟨24, _⟩ => ⟨S150000x64, .f32⟩
  | .hbm, ⟨25, _⟩ => ⟨S1000000x1, .f32⟩
  | .hbm, ⟨26, _⟩ => ⟨S_, .i32⟩
  | .hbm, ⟨27, _⟩ => ⟨S1000000, .i32⟩
  | .hbm, ⟨28, _⟩ => ⟨S1000000, .i1⟩
  | .hbm, ⟨29, _⟩ => ⟨S_, .i32⟩
  | .hbm, ⟨30, _⟩ => ⟨S1000000, .i32⟩
  | .hbm, ⟨31, _⟩ => ⟨S1000000, .i32⟩
  | .hbm, ⟨32, _⟩ => ⟨S1000000, .i32⟩
  | .hbm, ⟨33, _⟩ => ⟨S1000000x1, .i32⟩
  | .hbm, ⟨34, _⟩ => ⟨S1000000x64, .f32⟩
  | .hbm, ⟨35, _⟩ => ⟨S1000000x64, .f32⟩
  | .hbm, ⟨36, _⟩ => ⟨S1000000x64, .f32⟩
  | .hbm, ⟨37, _⟩ => ⟨S_, .f32⟩
  | .hbm, ⟨38, _⟩ => ⟨S150000x64, .f32⟩
  | .hbm, ⟨39, _⟩ => ⟨S1000000x1, .i32⟩
  | .hbm, ⟨40, _⟩ => ⟨S150000x64, .f32⟩
  | .hbm, ⟨41, _⟩ => ⟨S1000000x1, .f32⟩
  | .hbm, ⟨42, _⟩ => ⟨S_, .i32⟩
  | .hbm, ⟨43, _⟩ => ⟨S1000000, .i32⟩
  | .hbm, ⟨44, _⟩ => ⟨S1000000, .i1⟩
  | .hbm, ⟨45, _⟩ => ⟨S_, .i32⟩
  | .hbm, ⟨46, _⟩ => ⟨S1000000, .i32⟩
  | .hbm, ⟨47, _⟩ => ⟨S1000000, .i32⟩
  | .hbm, ⟨48, _⟩ => ⟨S1000000, .i32⟩
  | .hbm, ⟨49, _⟩ => ⟨S1000000x1, .i32⟩
  | .hbm, ⟨50, _⟩ => ⟨S1000000x64, .f32⟩
  | .hbm, ⟨51, _⟩ => ⟨S1000000x64, .f32⟩
  | .hbm, ⟨52, _⟩ => ⟨S1000000x64, .f32⟩
  | .hbm, ⟨53, _⟩ => ⟨S_, .f32⟩
  | .hbm, ⟨54, _⟩ => ⟨S150000x64, .f32⟩
  | .hbm, ⟨55, _⟩ => ⟨S1000000x1, .i32⟩
  | .hbm, ⟨56, _⟩ => ⟨S150000x64, .f32⟩
  | .hbm, ⟨57, _⟩ => ⟨S1000000x1, .f32⟩
  | .hbm, ⟨58, _⟩ => ⟨S_, .i32⟩
  | .hbm, ⟨59, _⟩ => ⟨S1000000, .i32⟩
  | .hbm, ⟨60, _⟩ => ⟨S1000000, .i1⟩
  | .hbm, ⟨61, _⟩ => ⟨S_, .i32⟩
  | .hbm, ⟨62, _⟩ => ⟨S1000000, .i32⟩
  | .hbm, ⟨63, _⟩ => ⟨S1000000, .i32⟩
  | .hbm, ⟨64, _⟩ => ⟨S1000000, .i32⟩
  | .hbm, ⟨65, _⟩ => ⟨S1000000x1, .i32⟩
  | .hbm, ⟨66, _⟩ => ⟨S1000000x64, .f32⟩
  | .hbm, ⟨67, _⟩ => ⟨S1000000x64, .f32⟩
  | .hbm, ⟨68, _⟩ => ⟨S1000000x64, .f32⟩
  | .hbm, ⟨69, _⟩ => ⟨S_, .f32⟩
  | .hbm, ⟨70, _⟩ => ⟨S150000x64, .f32⟩
  | .hbm, ⟨71, _⟩ => ⟨S1000000x1, .i32⟩
  | .hbm, ⟨72, _⟩ => ⟨S150000x64, .f32⟩
  | .hbm, ⟨73, _⟩ => ⟨S1000000x1, .f32⟩
  | .hbm, ⟨74, _⟩ => ⟨S_, .i32⟩
  | .hbm, ⟨75, _⟩ => ⟨S1000000, .i32⟩
  | .hbm, ⟨76, _⟩ => ⟨S1000000, .i1⟩
  | .hbm, ⟨77, _⟩ => ⟨S_, .i32⟩
  | .hbm, ⟨78, _⟩ => ⟨S1000000, .i32⟩
  | .hbm, ⟨79, _⟩ => ⟨S1000000, .i32⟩
  | .hbm, ⟨80, _⟩ => ⟨S1000000, .i32⟩
  | .hbm, ⟨81, _⟩ => ⟨S1000000x1, .i32⟩
  | .hbm, ⟨82, _⟩ => ⟨S1000000x64, .f32⟩
  | .hbm, ⟨83, _⟩ => ⟨S1000000x64, .f32⟩
  | .hbm, ⟨84, _⟩ => ⟨S1000000x64, .f32⟩
  | .hbm, ⟨85, _⟩ => ⟨S_, .f32⟩
  | .hbm, ⟨86, _⟩ => ⟨S150000x64, .f32⟩
  | .hbm, ⟨87, _⟩ => ⟨S1000000x1, .i32⟩
  | .hbm, ⟨88, _⟩ => ⟨S150000x64, .f32⟩
  | .hbm, ⟨89, _⟩ => ⟨S1000000x1, .f32⟩
  | .hbm, ⟨90, _⟩ => ⟨S_, .i32⟩
  | .hbm, ⟨91, _⟩ => ⟨S1000000, .i32⟩
  | .hbm, ⟨92, _⟩ => ⟨S1000000, .i1⟩
  | .hbm, ⟨93, _⟩ => ⟨S_, .i32⟩
  | .hbm, ⟨94, _⟩ => ⟨S1000000, .i32⟩
  | .hbm, ⟨95, _⟩ => ⟨S1000000, .i32⟩
  | .hbm, ⟨96, _⟩ => ⟨S1000000, .i32⟩
  | .hbm, ⟨97, _⟩ => ⟨S1000000x1, .i32⟩
  | .hbm, ⟨98, _⟩ => ⟨S1000000x64, .f32⟩
  | .hbm, ⟨99, _⟩ => ⟨S1000000x64, .f32⟩
  | .hbm, ⟨100, _⟩ => ⟨S1000000x64, .f32⟩
  | .hbm, ⟨101, _⟩ => ⟨S_, .f32⟩
  | .hbm, ⟨102, _⟩ => ⟨S150000x64, .f32⟩
  | .hbm, ⟨103, _⟩ => ⟨S1000000x1, .i32⟩
  | .hbm, ⟨104, _⟩ => ⟨S150000x64, .f32⟩
  | .hbm, ⟨105, _⟩ => ⟨S150000x1x64, .f32⟩
  | .hbm, ⟨106, _⟩ => ⟨S150000x1x64, .f32⟩
  | .hbm, ⟨107, _⟩ => ⟨S150000x1x64, .f32⟩
  | .hbm, ⟨108, _⟩ => ⟨S150000x1x64, .f32⟩
  | .hbm, ⟨109, _⟩ => ⟨S150000x4x64, .f32⟩
  | .hbm, ⟨110, _⟩ => ⟨S_, .f32⟩
  | .hbm, ⟨111, _⟩ => ⟨S150000x64, .f32⟩
  | .hbm, ⟨112, _⟩ => ⟨S_, .f32⟩
  | .hbm, ⟨113, _⟩ => ⟨S150000x64, .f32⟩
  | .hbm, ⟨114, _⟩ => ⟨S150000x64, .f32⟩
  | .hbm, ⟨115, _⟩ => ⟨S100000x64, .f32⟩
  | .hbm, ⟨116, _⟩ => ⟨S50000x64, .f32⟩
  | .hbm, ⟨117, _⟩ => ⟨S150000x1x64, .f32⟩
  | .hbm, ⟨118, _⟩ => ⟨S150000x1x64, .f32⟩
  | .hbm, ⟨119, _⟩ => ⟨S150000x1x64, .f32⟩
  | .hbm, ⟨120, _⟩ => ⟨S150000x1x64, .f32⟩
  | .hbm, ⟨121, _⟩ => ⟨S150000x4x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_7 : Ref sig .tc := ⟨.hbm, 58, rfl⟩
abbrev main_v41 : Ref sig .tc := ⟨.hbm, 59, rfl⟩
abbrev main_v42 : Ref sig .tc := ⟨.hbm, 60, rfl⟩
abbrev main_c_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_10 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_13 : Ref sig .tc := ⟨.hbm, 90, rfl⟩
abbrev main_v67 : Ref sig .tc := ⟨.hbm, 91, rfl⟩
abbrev main_v68 : Ref sig .tc := ⟨.hbm, 92, rfl⟩
abbrev main_c_14 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_15 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_16 : Ref sig .tc := ⟨.hbm, 110, rfl⟩
abbrev main_v84 : Ref sig .tc := ⟨.hbm, 111, rfl⟩
abbrev main_cst_17 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S150000x64 : S_.BroadcastsInDim S150000x64 (![] : Fin 0 → Fin S150000x64.rank)
  bcast_S150000x64_S150000x1x64_0_2 : S150000x64.BroadcastsInDim S150000x1x64 (![0, 2] : Fin 2 → Fin S150000x1x64.rank)
  concatenates_S150000x1x64_S150000x1x64_S150000x1x64_S150000x1x64_S150000x4x64_d1 : Shape.Concatenates [S150000x1x64, S150000x1x64, S150000x1x64, S150000x1x64] S150000x4x64 1
  reducesTo_S150000x4x64_S150000x64_d1 : S150000x4x64.ReducesTo [1] S150000x64
  h_S_ : 0 < S_.numel
  slices_S150000x64_S100000x64_0_0 : S150000x64.Slices ![0, 0] S100000x64
  slices_S150000x64_S50000x64_100000_0 : S150000x64.Slices ![100000, 0] S50000x64
  gather_S150000x64_S1000000x1_S1000000x64_1_0_n_n_0_1_164_wf : GatherDims.WF S150000x64 S1000000x1 S1000000x64 [1] [0] [] [0] [] 1 ![1, 64]
  scatter_S150000x64_S1000000x1_S1000000x64_1_0_0_1_wf : ScatterDims.WF S150000x64 S1000000x1 S1000000x64 [1] [0] [0] 1

variable [Facts₀]

def gather_S150000x64_S1000000x1_S1000000x64_1_0_n_n_0_1_164 : GatherDims S150000x64 S1000000x1 S1000000x64 where
  offsetDims := [1]
  collapsedSliceDims := [0]
  operandBatchingDims := []
  startIndicesBatchingDims := []
  startIndexMap := [0]
  indexVectorDim := 1
  sliceSizes := ![1, 64]
  wf := gather_S150000x64_S1000000x1_S1000000x64_1_0_n_n_0_1_164_wf
def scatter_S150000x64_S1000000x1_S1000000x64_1_0_0_1 : ScatterDims S150000x64 S1000000x1 S1000000x64 where
  updateWindowDims := [1]
  insertedWindowDims := [0]
  scatterDimsToOperandDims := [0]
  indexVectorDim := 1
  wf := scatter_S150000x64_S1000000x1_S1000000x64_1_0_0_1_wf

class Facts : Prop extends Facts₀ where

variable [Facts]
-- ==== Proof.PoolBody.lean ====
/-
  The kernel body's three stored values, entry by entry, as functions of the blocks it loads.

  A block is 3000 consecutive nodes.  From the block `x0` of the layer-zero table and the block `x1` of a
  propagated table the body stores

  * for the mean: `(x0[r,d] + 3 * x1[r,d]) * (1/4)` at row `r`, feature `d` (the shape casts in between
    are casts of a shape to itself);
  * for a stack: a row-layer-feature block made by joining, along the layer axis, `x0` given one layer
    and `x1` given one layer and repeated three times.  So at `(r, l, d)` it holds `x0[r,d]` when `l = 0`
    and `x1[r,d]` when `l` is 1, 2 or 3: the joined axis picks the first piece below its extent 1 and the
    second from there on, a repeated axis ignores its coordinate, and giving a table a unit layer axis
    keeps its row-major order, so `(r, 0, d)` reads `(r, d)`.
-/
import proofs.«110384_j7095285973816_1_alg».proof.Proof.Gen.KernelIdeal.Skeleton
import Idealize.ShloMosaic.Lib.Pipeline.Value

noncomputable section

namespace Cert.KernelIdeal.Pool

open Idealize.ShloMosaic Idealize.ShloMosaic.TcCoe Cert.KernelIdeal Cert.KernelIdeal.Gen

variable {F : FTy → Type} [FloatOps F]

/-- Row and feature of a block's (row, layer, feature) index. -/
abbrev rowFeat (j : S3000x4x64.Idx) : S3000x64.Idx := fun a => match a with
  | ⟨0, _⟩ => ⟨(j 0).val, (j 0).isLt⟩
  | ⟨1, _⟩ => ⟨(j 2).val, (j 2).isLt⟩

/-- The same row and feature in a one-layer slab. -/
abbrev oneLayer (j : S3000x4x64.Idx) : S3000x1x64.Idx := fun a => match a with
  | ⟨0, _⟩ => ⟨(j 0).val, (j 0).isLt⟩
  | ⟨1, _⟩ => ⟨0, (Nat.zero_lt_one : 0 < 1)⟩
  | ⟨2, _⟩ => ⟨(j 2).val, (j 2).isLt⟩

/-- A layer from 1 on, counted inside the three-layer slab that follows layer zero. -/
abbrev laterLayer (j : S3000x4x64.Idx) (h : (j 1).val ≠ 0) : S3000x3x64.Idx := fun a => match a with
  | ⟨0, _⟩ => ⟨(j 0).val, (j 0).isLt⟩
  | ⟨1, _⟩ => ⟨(j 1).val - 1, by have h4 : (j 1).val < 4 := (j 1).isLt; show (j 1).val - 1 < 3; omega⟩
  | ⟨2, _⟩ => ⟨(j 2).val, (j 2).isLt⟩

/-- A row-by-feature block given a unit layer axis reads, at `(r, 0, d)`, the block at `(r, d)`: both
    sit at row-major position `r * 64 + d`. -/
theorem addLayer_apply {α : Type} (x : S3000x64.Idx → α) (i : S3000x1x64.Idx) (k : S3000x64.Idx)
    (h0 : (k 0).val = (i 0).val) (h1 : (k 1).val = (i 2).val) :
    shapeCast S3000x1x64 x shapeCasts_S3000x64_S3000x1x64 i = x k := by
  refine shapeCast_apply x _ i k ?_
  rw [Shape.rowMajor_val_two, Shape.rowMajor_val_three]
  have hl : (i 1).val < 1 := (i 1).isLt
  show (k 0).val * 64 + (k 1).val = ((i 0).val * 1 + (i 1).val) * 64 + (i 2).val
  omega

/-- The stored mean block, entry by entry. -/
theorem pay3_eq (x0 x1 : Vec F S3000x64 .f32) :
    k0_pay3 x0 x1 = fun j => FloatOps.mulf (FloatOps.addf (x0 j) (FloatOps.mulf (Scalar.ofBits .f32 0x40400000#32) (x1 j)))
      (Scalar.ofBits .f32 0x3E800000#32) := by
  unfold k0_pay3 k0_pay1 k0_pay2
  simp only [shapeCast_self]
  rfl

/-- Joining a one-layer slab of `x0` with a thrice-repeated one-layer slab of `x1` along the layer axis:
    layer zero is `x0`, the later layers are `x1`. -/
theorem stackBlock_apply {α : Type} (x0 x1 : S3000x64.Idx → α) (j : S3000x4x64.Idx) :
    concatenate S3000x4x64 1 [⟨S3000x1x64, shapeCast S3000x1x64 x0 shapeCasts_S3000x64_S3000x1x64⟩,
        ⟨S3000x3x64, broadcastTo S3000x3x64 (shapeCast S3000x1x64 x1 shapeCasts_S3000x64_S3000x1x64) broadcasts_S3000x1x64_S3000x3x64⟩]
      concatenates_S3000x1x64_S3000x3x64_S3000x4x64_d1 j
      = if (j 1).val = 0 then x0 (rowFeat j) else x1 (rowFeat j) := by
  by_cases h : (j 1).val = 0
  · rw [if_pos h]
    refine (concatenate_pair_apply_left (t := S3000x4x64) (s₁ := S3000x1x64) (s₂ := S3000x3x64) (1 : Fin 3) _ _
      concatenates_S3000x1x64_S3000x3x64_S3000x4x64_d1 j rfl (oneLayer j)
      (fun b => ?_)).trans ?_
    · match b with
      | ⟨0, _⟩ => rfl
      | ⟨1, _⟩ => exact h.symm
      | ⟨2, _⟩ => rfl
    · exact addLayer_apply x0 (oneLayer j) (rowFeat j) rfl rfl
  · rw [if_neg h]
    refine (concatenate_pair_apply_right (t := S3000x4x64) (s₁ := S3000x1x64) (s₂ := S3000x3x64) (1 : Fin 3) _ _
      concatenates_S3000x1x64_S3000x3x64_S3000x4x64_d1 j rfl rfl (laterLayer j h)
      (fun b hb => ?_) ?_).trans ?_
    · match b with
      | ⟨0, _⟩ => rfl
      | ⟨1, _⟩ => exact absurd rfl hb
      | ⟨2, _⟩ => rfl
    · show (j 1).val - 1 + 1 = (j 1).val
      omega
    · refine (broadcastTo_apply _ broadcasts_S3000x1x64_S3000x3x64 (laterLayer j h) (oneLayer j) (fun a => ?_)).trans ?_
      · match a with
        | ⟨0, _⟩ => show (j 0).val = if (3000 : Nat) = 1 then 0 else (j 0).val; rw [if_neg (by decide)]
        | ⟨1, _⟩ => show 0 = if (1 : Nat) = 1 then 0 else _; rw [if_pos rfl]
        | ⟨2, _⟩ => show (j 2).val = if (64 : Nat) = 1 then 0 else (j 2).val; rw [if_neg (by decide)]
      · exact addLayer_apply x1 (oneLayer j) (rowFeat j) rfl rfl

/-- The stored block of the first stack (layer zero against the first propagated table). -/
theorem pay4_eq (x0 x1 : Vec F S3000x64 .f32) :
    k0_pay4 x0 x1 = fun j => if (j 1).val = 0 then x0 (rowFeat j) else x1 (rowFeat j) := by
  funext j
  unfold k0_pay4 k0_pay1 k0_pay2
  simp only [shapeCast_self]
  exact stackBlock_apply x0 x1 j

/-- The stored block of the second stack (layer zero against the second propagated table). -/
theorem pay5_eq (x0 x2 : Vec F S3000x64 .f32) :
    k0_pay5 x0 x2 = fun j => if (j 1).val = 0 then x0 (rowFeat j) else x2 (rowFeat j) := by
  funext j
  unfold k0_pay5 k0_pay1
  simp only [shapeCast_self]
  exact stackBlock_apply x0 x2 j

end Cert.KernelIdeal.Pool

end
-- ==== Proof.PoolSpec.lean ====
/-
  What the program computes, as functions of three arrays over the 150000 nodes.

  `e` is the layer-zero embedding table (users stacked on items), `a` a propagated table (the sparse
  adjacency applied to `e`; every propagation layer yields this same table, since the source never updates
  `e` between layers).

  * `meanOf e a`, at node `n` and feature `d`: `(e[n,d] + 3 * a[n,d]) * (1/4)`, the mean over the four
    layers `e, a, a, a`, in the form the kernel computes it.
  * `stackOf e a`, at node `n`, layer `l`, feature `d`: `e[n,d]` for layer `0` and `a[n,d]` for
    layers `1, 2, 3`.

  Both are stated for any float instance; nothing here depends on a program.
-/
import Idealize.ShloMosaic.PureOps.Ideal
import Idealize.ShloMosaic.PureOps.Vector

noncomputable section

namespace Cert.PoolSpec

open Idealize.ShloMosaic

/-- Nodes by features. -/
abbrev SN : Shape := ⟨2, ![150000, 64]⟩
/-- Nodes by layers by features. -/
abbrev SN4 : Shape := ⟨3, ![150000, 4, 64]⟩

variable {F : FTy → Type} [FloatOps F]

/-- The node and the feature of a (node, layer, feature) index. -/
abbrev nodeFeat (i : SN4.Idx) : SN.Idx := fun a => match a with
  | ⟨0, _⟩ => ⟨(i 0).val, (i 0).isLt⟩
  | ⟨1, _⟩ => ⟨(i 2).val, (i 2).isLt⟩

/-- The layer mean in the kernel's form: `(e + 3 * a) * (1/4)`, entry by entry. -/
def meanOf (e a : SN.Idx → Elt F .f32) : SN.Idx → Elt F .f32 := fun i =>
  FloatOps.mulf (FloatOps.addf (e i) (FloatOps.mulf (Scalar.ofBits .f32 0x40400000#32) (a i))) (Scalar.ofBits .f32 0x3E800000#32)

/-- The four layers side by side: layer zero is `e`, the other three are `a`. -/
def stackOf (e a : SN.Idx → Elt F .f32) : SN4.Idx → Elt F .f32 := fun i =>
  if (i 1).val = 0 then e (nodeFeat i) else a (nodeFeat i)

end Cert.PoolSpec

end
-- ==== Proof.PoolArrays.lean ====
/-
  The three arrays the region leaves, as functions of the three arrays it finds.

  The grid has fifty points; point `t` works on nodes `3000 t` to `3000 t + 2999`: every window's index
  map sends `t` to block `t` along the node axis and to block `0` along the others (decided once over
  the fifty points).  So an entry of a loaded block and the entry of the stored block it feeds sit at the
  same node and feature of their arrays, and what point `t` writes back is exactly block `t` of ONE
  whole-array function: the layer mean for the first output, the layer stack for the other two.  Node `n`
  lies in the block of point `n / 3000`, so the fifty blocks cover each output array and the array after
  the run is that function.
-/
import proofs.«110384_j7095285973816_1_alg».proof.Proof.Gen.KernelIdeal.Frame
import proofs.«110384_j7095285973816_1_alg».proof.Proof.PoolBody
import proofs.«110384_j7095285973816_1_alg».proof.Proof.PoolSpec
import Idealize.ShloMosaic.Lib.Pipeline.Value

set_option maxRecDepth 16384

noncomputable section

namespace Cert.KernelIdeal.Pool

open Idealize.ShloMosaic Idealize.ShloMosaic.TcCoe Idealize.SL.Sem
open Idealize.ShloMosaic.Pipeline (Dat Cfg Window)
open Cert.KernelIdeal Cert.KernelIdeal.Gen Cert.PoolSpec

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- Every window's block at point `t` is block `t` along the nodes and block `0` along the other axes. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- Each of the fifty block numbers is a grid point. -/
theorem pointOf : ∀ q : Fin 50, ∃ t : Fin cfg0.N, t.val = q.val :=
  (by decide +kernel : ∀ q : Fin 50, ∃ t : Fin grid0.N, t.val = q.val)

/-! ## The layer mean (first output) -/

/-- What point `t` writes back to the first output is block `t` of the layer mean of the two tables the
    region finds. -/
theorem flushed3_eq (c : Dev nD) (t : Fin cfg0.N) :
    (dats m 0 c).flushed 3 t = ((cfg0.win 3).blk t).view.read (Elt F) (meanOf (V m c main_v0) (V m c main_v13)) := by
  show (cfg0.win 3).cut (grid0.coords t) ((dats m 0 c).after 3 t) = _
  rw [after0_3]
  unfold out0_3
  rw [View.canon_unit_zero hz2]
  simp only [View.ld_unit_zero (S := S3000x64) hz2]
  rw [pay3_eq]
  obtain ⟨e00, e01, e10, e11, e20, e21, e30, e31, e40, e41, e42, e50, e51, e52⟩ := idx_facts t
  funext j
  show FloatOps.mulf (FloatOps.addf (V m c main_v0 (((cfg0.win 0).blk t).view.emb j))
      (FloatOps.mulf (Scalar.ofBits .f32 0x40400000#32) (V m c main_v13 (((cfg0.win 1).blk t).view.emb j)))) (Scalar.ofBits .f32 0x3E800000#32)
    = meanOf (V m c main_v0) (V m c main_v13) (((cfg0.win 3).blk t).view.emb j)
  have h0 : ((cfg0.win 0).blk t).view.emb j = ((cfg0.win 3).blk t).view.emb j := by
    funext a; apply Fin.ext
    match a with
    | ⟨0, _⟩ => show win0_0.index t (0 : Fin 2) * 3000 + 1 * (j 0).val = win0_3.index t (0 : Fin 2) * 3000 + 1 * (j 0).val; omega
    | ⟨1, _⟩ => show win0_0.index t (1 : Fin 2) * 64 + 1 * (j 1).val = win0_3.index t (1 : Fin 2) * 64 + 1 * (j 1).val; omega
  have h1 : ((cfg0.win 1).blk t).view.emb j = ((cfg0.win 3).blk t).view.emb j := by
    funext a; apply Fin.ext
    match a with
    | ⟨0, _⟩ => show win0_1.index t (0 : Fin 2) * 3000 + 1 * (j 0).val = win0_3.index t (0 : Fin 2) * 3000 + 1 * (j 0).val; omega
    | ⟨1, _⟩ => show win0_1.index t (1 : Fin 2) * 64 + 1 * (j 1).val = win0_3.index t (1 : Fin 2) * 64 + 1 * (j 1).val; omega
  rw [h0, h1]
  rfl

/-- An index of the mean array is in point `t`'s block iff each coordinate is in the block's range. -/
theorem mem_blk3 (t : Fin cfg0.N) (i : S150000x64.Idx) :
    i ∈ ((cfg0.win 3).blk t).view.set ↔ ∀ a : Fin 2, win0_3.index t a * S3000x64.size a ≤ (i a).val ∧ (i a).val < win0_3.index t a * S3000x64.size a + S3000x64.size a := by
  show i ∈ ((View.whole main_v27_0).slice (win0_3.rect t)).set ↔ _
  rw [View.set_slice_whole, Rect.mem_set_unit]
  exact Iff.rfl

/-- Every (node, feature) index lies in the block of the point its node falls in. -/
theorem cover3 (i : S150000x64.Idx) : ∃ t : Fin cfg0.N, (cfg0.win 3).flush t = true ∧ i ∈ ((cfg0.win 3).blk t).view.set := by
  have hi0 : (i 0).val < 150000 := (i 0).isLt
  have hi1 : (i 1).val < 64 := (i 1).isLt
  obtain ⟨t, ht⟩ := pointOf ⟨(i 0).val / 3000, by omega⟩
  have ht' : t.val = (i 0).val / 3000 := ht
  obtain ⟨e00, e01, e10, e11, e20, e21, e30, e31, e40, e41, e42, e50, e51, e52⟩ := idx_facts t
  refine ⟨t, flush0_3 t, ?_⟩
  rw [mem_blk3]
  intro a
  match a with
  | ⟨0, _⟩ => show win0_3.index t (0 : Fin 2) * 3000 ≤ (i 0).val ∧ (i 0).val < win0_3.index t (0 : Fin 2) * 3000 + 3000; omega
  | ⟨1, _⟩ => show win0_3.index t (1 : Fin 2) * 64 ≤ (i 1).val ∧ (i 1).val < win0_3.index t (1 : Fin 2) * 64 + 64; omega

/-- The first output array after the run is the layer mean. -/
theorem final3 (c : Dev nD) : (dats m 0 c).arrAt 3 cfg0.N = meanOf (V m c main_v0) (V m c main_v13) :=
  (dats m 0 c).arrAt_eq_of_cover 3 _ (fun t _ => flushed3_eq m c t) cover3

/-! ## The two layer stacks (second and third output) -/

/-- What point `t` writes back to the second output is block `t` of the stack of layer zero and the first propagated table. -/
theorem flushed4_eq (c : Dev nD) (t : Fin cfg0.N) :
    (dats m 0 c).flushed 4 t = ((cfg0.win 4).blk t).view.read (Elt F) (stackOf (V m c main_v0) (V m c main_v13)) := by
  show (cfg0.win 4).cut (grid0.coords t) ((dats m 0 c).after 4 t) = _
  rw [after0_4]
  unfold out0_4
  rw [View.canon_unit_zero hz3]
  simp only [View.ld_unit_zero (S := S3000x64) hz2]
  rw [pay4_eq]
  obtain ⟨e00, e01, e10, e11, e20, e21, e30, e31, e40, e41, e42, e50, e51, e52⟩ := idx_facts t
  funext j
  show (if (j 1).val = 0 then V m c main_v0 (((cfg0.win 0).blk t).view.emb (rowFeat j))
      else V m c main_v13 (((cfg0.win 1).blk t).view.emb (rowFeat j)))
    = stackOf (V m c main_v0) (V m c main_v13) (((cfg0.win 4).blk t).view.emb j)
  have hl : ((((cfg0.win 4).blk t).view.emb j) 1).val = (j 1).val := by
    show win0_4.index t (1 : Fin 3) * 4 + 1 * (j 1).val = (j 1).val; omega
  have h0 : ((cfg0.win 0).blk t).view.emb (rowFeat j) = nodeFeat (((cfg0.win 4).blk t).view.emb j) := by
    funext a; apply Fin.ext
    match a with
    | ⟨0, _⟩ => show win0_0.index t (0 : Fin 2) * 3000 + 1 * (j 0).val = win0_4.index t (0 : Fin 3) * 3000 + 1 * (j 0).val; omega
    | ⟨1, _⟩ => show win0_0.index t (1 : Fin 2) * 64 + 1 * (j 2).val = win0_4.index t (2 : Fin 3) * 64 + 1 * (j 2).val; omega
  have h1 : ((cfg0.win 1).blk t).view.emb (rowFeat j) = nodeFeat (((cfg0.win 4).blk t).view.emb j) := by
    funext a; apply Fin.ext
    match a with
    | ⟨0, _⟩ => show win0_1.index t (0 : Fin 2) * 3000 + 1 * (j 0).val = win0_4.index t (0 : Fin 3) * 3000 + 1 * (j 0).val; omega
    | ⟨1, _⟩ => show win0_1.index t (1 : Fin 2) * 64 + 1 * (j 2).val = win0_4.index t (2 : Fin 3) * 64 + 1 * (j 2).val; omega
  unfold stackOf
  rw [hl, h0, h1]

/-- An index of the stacked array is in point `t`'s block iff each coordinate is in the block's range. -/
theorem mem_blk4 (t : Fin cfg0.N) (i : S150000x4x64.Idx) :
    i ∈ ((cfg0.win 4).blk t).view.set ↔ ∀ a : Fin 3, win0_4.index t a * S3000x4x64.size a ≤ (i a).val ∧ (i a).val < win0_4.index t a * S3000x4x64.size a + S3000x4x64.size a := by
  show i ∈ ((View.whole main_v27_1).slice (win0_4.rect t)).set ↔ _
  rw [View.set_slice_whole, Rect.mem_set_unit]
  exact Iff.rfl

/-- Every (node, layer, feature) index lies in the block of the point its node falls in. -/
theorem cover4 (i : S150000x4x64.Idx) : ∃ t : Fin cfg0.N, (cfg0.win 4).flush t = true ∧ i ∈ ((cfg0.win 4).blk t).view.set := by
  have hi0 : (i 0).val < 150000 := (i 0).isLt
  have hi1 : (i 1).val < 4 := (i 1).isLt
  have hi2 : (i 2).val < 64 := (i 2).isLt
  obtain ⟨t, ht⟩ := pointOf ⟨(i 0).val / 3000, by omega⟩
  have ht' : t.val = (i 0).val / 3000 := ht
  obtain ⟨e00, e01, e10, e11, e20, e21, e30, e31, e40, e41, e42, e50, e51, e52⟩ := idx_facts t
  refine ⟨t, flush0_4 t, ?_⟩
  rw [mem_blk4]
  intro a
  match a with
  | ⟨0, _⟩ => show win0_4.index t (0 : Fin 3) * 3000 ≤ (i 0).val ∧ (i 0).val < win0_4.index t (0 : Fin 3) * 3000 + 3000; omega
  | ⟨1, _⟩ => show win0_4.index t (1 : Fin 3) * 4 ≤ (i 1).val ∧ (i 1).val < win0_4.index t (1 : Fin 3) * 4 + 4; omega
  | ⟨2, _⟩ => show win0_4.index t (2 : Fin 3) * 64 ≤ (i 2).val ∧ (i 2).val < win0_4.index t (2 : Fin 3) * 64 + 64; omega

/-- The second output array after the run is that stack. -/
theorem final4 (c : Dev nD) : (dats m 0 c).arrAt 4 cfg0.N = stackOf (V m c main_v0) (V m c main_v13) :=
  (dats m 0 c).arrAt_eq_of_cover 4 _ (fun t _ => flushed4_eq m c t) cover4

/-- What point `t` writes back to the third output is block `t` of the stack of layer zero and the second propagated table. -/
theorem flushed5_eq (c : Dev nD) (t : Fin cfg0.N) :
    (dats m 0 c).flushed 5 t = ((cfg0.win 5).blk t).view.read (Elt F) (stackOf (V m c main_v0) (V m c main_v26)) := by
  show (cfg0.win 5).cut (grid0.coords t) ((dats m 0 c).after 5 t) = _
  rw [after0_5]
  unfold out0_5
  rw [View.canon_unit_zero hz3]
  simp only [View.ld_unit_zero (S := S3000x64) hz2]
  rw [pay5_eq]
  obtain ⟨e00, e01, e10, e11, e20, e21, e30, e31, e40, e41, e42, e50, e51, e52⟩ := idx_facts t
  funext j
  show (if (j 1).val = 0 then V m c main_v0 (((cfg0.win 0).blk t).view.emb (rowFeat j))
      else V m c main_v26 (((cfg0.win 2).blk t).view.emb (rowFeat j)))
    = stackOf (V m c main_v0) (V m c main_v26) (((cfg0.win 5).blk t).view.emb j)
  have hl : ((((cfg0.win 5).blk t).view.emb j) 1).val = (j 1).val := by
    show win0_5.index t (1 : Fin 3) * 4 + 1 * (j 1).val = (j 1).val; omega
  have h0 : ((cfg0.win 0).blk t).view.emb (rowFeat j) = nodeFeat (((cfg0.win 5).blk t).view.emb j) := by
    funext a; apply Fin.ext
    match a with
    | ⟨0, _⟩ => show win0_0.index t (0 : Fin 2) * 3000 + 1 * (j 0).val = win0_5.index t (0 : Fin 3) * 3000 + 1 * (j 0).val; omega
    | ⟨1, _⟩ => show win0_0.index t (1 : Fin 2) * 64 + 1 * (j 2).val = win0_5.index t (2 : Fin 3) * 64 + 1 * (j 2).val; omega
  have h1 : ((cfg0.win 2).blk t).view.emb (rowFeat j) = nodeFeat (((cfg0.win 5).blk t).view.emb j) := by
    funext a; apply Fin.ext
    match a with
    | ⟨0, _⟩ => show win0_2.index t (0 : Fin 2) * 3000 + 1 * (j 0).val = win0_5.index t (0 : Fin 3) * 3000 + 1 * (j 0).val; omega
    | ⟨1, _⟩ => show win0_2.index t (1 : Fin 2) * 64 + 1 * (j 2).val = win0_5.index t (2 : Fin 3) * 64 + 1 * (j 2).val; omega
  unfold stackOf
  rw [hl, h0, h1]

/-- An index of the stacked array is in point `t`'s block iff each coordinate is in the block's range. -/
theorem mem_blk5 (t : Fin cfg0.N) (i : S150000x4x64.Idx) :
    i ∈ ((cfg0.win 5).blk t).view.set ↔ ∀ a : Fin 3, win0_5.index t a * S3000x4x64.size a ≤ (i a).val ∧ (i a).val < win0_5.index t a * S3000x4x64.size a + S3000x4x64.size a := by
  show i ∈ ((View.whole main_v27_2).slice (win0_5.rect t)).set ↔ _
  rw [View.set_slice_whole, Rect.mem_set_unit]
  exact Iff.rfl

/-- Every (node, layer, feature) index lies in the block of the point its node falls in. -/
theorem cover5 (i : S150000x4x64.Idx) : ∃ t : Fin cfg0.N, (cfg0.win 5).flush t = true ∧ i ∈ ((cfg0.win 5).blk t).view.set := by
  have hi0 : (i 0).val < 150000 := (i 0).isLt
  have hi1 : (i 1).val < 4 := (i 1).isLt
  have hi2 : (i 2).val < 64 := (i 2).isLt
  obtain ⟨t, ht⟩ := pointOf ⟨(i 0).val / 3000, by omega⟩
  have ht' : t.val = (i 0).val / 3000 := ht
  obtain ⟨e00, e01, e10, e11, e20, e21, e30, e31, e40, e41, e42, e50, e51, e52⟩ := idx_facts t
  refine ⟨t, flush0_5 t, ?_⟩
  rw [mem_blk5]
  intro a
  match a with
  | ⟨0, _⟩ => show win0_5.index t (0 : Fin 3) * 3000 ≤ (i 0).val ∧ (i 0).val < win0_5.index t (0 : Fin 3) * 3000 + 3000; omega
  | ⟨1, _⟩ => show win0_5.index t (1 : Fin 3) * 4 ≤ (i 1).val ∧ (i 1).val < win0_5.index t (1 : Fin 3) * 4 + 4; omega
  | ⟨2, _⟩ => show win0_5.index t (2 : Fin 3) * 64 ≤ (i 2).val ∧ (i 2).val < win0_5.index t (2 : Fin 3) * 64 + 64; omega

/-- The third output array after the run is that stack. -/
theorem final5 (c : Dev nD) : (dats m 0 c).arrAt 5 cfg0.N = stackOf (V m c main_v0) (V m c main_v26) :=
  (dats m 0 c).arrAt_eq_of_cover 5 _ (fun t _ => flushed5_eq m c t) cover5

end Cert.KernelIdeal.Pool

end
-- ==== Proof.PoolRun.lean ====
/-
  The kernel program's run, with every result named.

  After the region, the program cuts the mean array into its first 100000 rows (the users) and its last
  50000 rows (the items); the two stacks are returned as the region leaves them.  The generated frame run
  already states every array of the region after the run and every later host result; here each is read
  as the layer mean or a layer stack of the three arrays the region finds, the two cuts applied to the
  mean.  The eight argument arrays end as they were launched.
-/
import proofs.«110384_j7095285973816_1_alg».proof.Proof.PoolArrays
import Idealize.ShloMosaic.Lib.StableHlo.Run

set_option maxRecDepth 16384

noncomputable section

namespace Cert.KernelIdeal.Pool

open Idealize.ShloMosaic Idealize.ShloMosaic.TcCoe Idealize.SL.Sem Idealize.ShloMosaic.StableHlo
open Idealize.ShloMosaic.Pipeline (Dat Cfg Window)
open Cert.KernelIdeal Cert.KernelIdeal.Gen Cert.PoolSpec

variable {F : FTy → Type} [FloatOps F]
variable (m : (ℓ : Loc nD τ sig) → Buf (Elt F) ℓ) (ρ : Dev nD → PrngReg)

/-- The users' rows: the first cut of the mean array the region leaves. -/
theorem tail_users (c : Dev nD) :
    Pipeline.afterTail₀ cfgs (dats m) 0 (V0 m) [hostOps1] c main_v28
      = extractStridedSlice S100000x64 ![0, 0] (meanOf (V m c main_v0) (V m c main_v13) : S150000x64.Idx → Elt F .f32)
          slices_S150000x64_S100000x64_0_0 := by
  unfold Pipeline.afterTail₀
  show StableHlo.after hostOps1 _ (Proc.devRef .tc main_v28) = _
  after_results
  have e : Pipeline.withArrays (cfgs 0).spec c (V0 m c) (fun w => (dats m 0 c).arrAt w (cfgs 0).N) (Proc.devRef .tc main_v27_0)
      = meanOf (V m c main_v0) (V m c main_v13) :=
    (Pipeline.withArrays_arr spec0 launch0.win.arr_inj c (V0 m c) (fun w => (dats m 0 c).arrAt w (cfgs 0).N) 3).trans (final3 m c)
  rw [e]

/-- The items' rows: the second cut of the mean array the region leaves. -/
theorem tail_items (c : Dev nD) :
    Pipeline.afterTail₀ cfgs (dats m) 0 (V0 m) [hostOps1] c main_v29
      = extractStridedSlice S50000x64 ![100000, 0] (meanOf (V m c main_v0) (V m c main_v13) : S150000x64.Idx → Elt F .f32)
          slices_S150000x64_S50000x64_100000_0 := by
  unfold Pipeline.afterTail₀
  show StableHlo.after hostOps1 _ (Proc.devRef .tc main_v29) = _
  after_results
  have e : Pipeline.withArrays (cfgs 0).spec c (V0 m c) (fun w => (dats m 0 c).arrAt w (cfgs 0).N) (Proc.devRef .tc main_v27_0)
      = meanOf (V m c main_v0) (V m c main_v13) :=
    (Pipeline.withArrays_arr spec0 launch0.win.arr_inj c (V0 m c) (fun w => (dats m 0 c).arrAt w (cfgs 0).N) 3).trans (final3 m c)
  rw [e]

/-- After the frame run the second output's array is what the region leaves in it. -/
theorem post4 (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_v27_1) = (dats m 0 c).arrAt 4 cfg0.N :=
  (h c).1 4

/-- After the frame run the third output's array is what the region leaves in it. -/
theorem post5 (r : PUnit × MemSt nD τ sig (Elt F))
    (h : Pipeline.FramePost cfgs (dats m) 0 (Pipeline.afterTail₀ cfgs (dats m) 0 (V0 m) [hostOps1]) r) (c : Dev nD) :
    r.2.mem ((c : Thread nD τ).loc main_v27_2) = (dats m 0 c).arrAt 5 cfg0.N :=
  (h c).1 5

/-- Every weakly fair execution of the kernel program terminates with the users' and the items' rows of the
    layer mean, the two layer stacks, and the arguments unchanged. -/
theorem run : θ_run defs (onTc (τ := τ) (main (F := F))) ⟨m, fun _ => 0, ρ⟩ fun r => ∀ c : Dev nD,
      r.2.mem ((c.tc : Thread nD τ).loc main_v28)
        = extractStridedSlice S100000x64 ![0, 0] (meanOf (V m c main_v0) (V m c main_v13) : S150000x64.Idx → Elt F .f32) slices_S150000x64_S100000x64_0_0
      ∧ r.2.mem ((c.tc : Thread nD τ).loc main_v29)
        = extractStridedSlice S50000x64 ![100000, 0] (meanOf (V m c main_v0) (V m c main_v13) : S150000x64.Idx → Elt F .f32) slices_S150000x64_S50000x64_100000_0
      ∧ r.2.mem ((c.tc : Thread nD τ).loc main_v27_1) = stackOf (V m c main_v0) (V m c main_v13)
      ∧ r.2.mem ((c.tc : Thread nD τ).loc main_v27_2) = stackOf (V m c main_v0) (V m c main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨
      (((h c).2 main_v28 (Pipeline.mem_restRefs_of main_v28 (by decide) (by decide))).trans (tail_users m c)),
      (((h c).2 main_v29 (Pipeline.mem_restRefs_of main_v29 (by decide) (by decide))).trans (tail_items m c)),
      ((post4 m r h c).trans (final4 m c)),
      ((post5 m r h c).trans (final5 m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.Pool

end
-- ==== Proof.MeanLaw.lean ====
/-
  The one algebraic law of this certificate, on the extended reals.

  The reference averages four layers: the sum `0 + (e + a + a + a)` divided by `4`.  The kernel, knowing
  that layers one to three are the same array, computes `(e + 3 * a) * (1/4)`.  Both are the same extended
  real for EVERY `e` and `a`, infinite ones included: three copies of `a` add up to `3 * a` also at
  `⊤` and `⊥` (a positive real times an infinity is that infinity, and an infinity added to itself is
  itself), and division by the nonzero real `4` is multiplication by `1/4` at the infinities too.  So no
  finiteness of the inputs is used.  The three float literals `3.0`, `0.25` and `4.0` are exact dyadic
  numbers, read here once as reals.
-/
import Idealize.ShloMosaic.PureOps.Ideal
import Idealize.ShloMosaic.PureOps.Ideal.Laws

noncomputable section

namespace Cert.PoolLaw

open Idealize.ShloMosaic

/-- The f32 word `0x40400000` is the real number `3`. -/
theorem lit_three : Ideal.ofBits .f32 0x40400000#32 = ((3 : ℝ) : EReal) := by
  simp [Ideal.ofBits, Ideal.ieee, -EReal.coe_mul]; norm_num

/-- The f32 word `0x3E800000` is the real number `1/4`. -/
theorem lit_quarter : Ideal.ofBits .f32 0x3E800000#32 = ((1 / 4 : ℝ) : EReal) := by
  simp [Ideal.ofBits, Ideal.ieee, -EReal.coe_mul]; norm_num

/-- The f32 word `0x40800000` is the real number `4`. -/
theorem lit_four : Ideal.ofBits .f32 0x40800000#32 = ((4 : ℝ) : EReal) := by
  simp [Ideal.ofBits, Ideal.ieee, -EReal.coe_mul]; norm_num

/-- Three times an extended real is that extended real added to itself twice, at the infinities too. -/
theorem three_mul_eq (a : EReal) : ((3 : ℝ) : EReal) * a = a + a + a := by
  induction a using EReal.rec with
  | bot => rw [EReal.coe_mul_bot_of_pos (by norm_num : (0 : ℝ) < 3)]; rfl
  | coe r => rw [← EReal.coe_mul, ← EReal.coe_add, ← EReal.coe_add]; congr 1; ring
  | top => rw [EReal.coe_mul_top_of_pos (by norm_num : (0 : ℝ) < 3)]; rfl

/-- The mean of the four layers `e, a, a, a`, as the reference computes it (the sum from `0`, divided by
    `4`), is the kernel's `(e + 3 * a) * (1/4)`. -/
theorem mean_law (e a : EReal) (f : Fin 4 → EReal) (h0 : f 0 = e) (h1 : f 1 = a) (h2 : f 2 = a) (h3 : f 3 = a) :
    Ideal.div (Ideal.ofBits .f32 0x00000000#32 + ∑ k : Fin 4, f k) (Ideal.ofBits .f32 0x40800000#32)
      = (e + Ideal.ofBits .f32 0x40400000#32 * a) * Ideal.ofBits .f32 0x3E800000#32 := by
  rw [Fin.sum_univ_four, h0, h1, h2, h3, Ideal.ofBits_zero_f32, zero_add, lit_four, lit_three, lit_quarter,
    Ideal.div_coe (by norm_num : (4 : ℝ) ≠ 0), three_mul_eq]
  simp only [add_assoc]

end Cert.PoolLaw

end
-- ==== Proof.PoolRef.lean ====
/-
  The reference's stages are the same two functions.

  The reference applies the sparse adjacency to the layer-zero table once per layer, three times for each
  of the two adjacencies; the table is never updated in between, so the three applications are one and
  the same term of the arguments (equal by unfolding their definitions: no gather or scatter is opened).
  It then lays the four layers side by side by joining four one-layer slabs along the layer axis: an index
  with layer `l` falls in slab `l`, at layer `0` of that slab, and a table given a unit layer axis reads
  its (node, feature) entry there.  So its stack is `stackOf`.  Its mean is the sum over the four layers
  from `0`, divided by `4`; the four summands at node `n`, feature `d` are `e[n,d], a[n,d], a[n,d],
  a[n,d]`, and the law `(0 + (e + a + a + a)) / 4 = (e + 3 * a) * (1/4)` on the extended reals makes it
  `meanOf`.
-/
import proofs.«110384_j7095285973816_1_alg».proof.Proof.RefRead
import proofs.«110384_j7095285973816_1_alg».proof.Proof.MeanLaw
import proofs.«110384_j7095285973816_1_alg».proof.Proof.PoolSpec
import Idealize.ShloMosaic.Lib.Pipeline.Value

noncomputable section

namespace Cert.ReferenceIdeal.Pool

open Idealize.ShloMosaic Idealize.ShloMosaic.TcCoe
open Cert.ReferenceIdeal Cert.ReferenceIdeal.Gen Cert.ReferenceIdeal.ReadP Cert.PoolSpec

variable {F : FTy → Type} [FloatOps F]

/-! ## The repeated propagations are one term -/

section Same
variable (x0 : (⟨S100000x64, .f32⟩ : BufTy).Contents (Elt F)) (x1 : (⟨S50000x64, .f32⟩ : BufTy).Contents (Elt F))
  (r c : (⟨S1000000, .i32⟩ : BufTy).Contents (Elt F)) (v : (⟨S1000000, .f32⟩ : BufTy).Contents (Elt F))

/-- The second application of the first adjacency is the first one. -/
theorem v39_eq : val_main_v39 (F := F) x0 x1 r c v = val_main_v13 (F := F) x0 x1 r c v := rfl
/-- The third application of the first adjacency is the first one. -/
theorem v65_eq : val_main_v65 (F := F) x0 x1 r c v = val_main_v13 (F := F) x0 x1 r c v := rfl
/-- The second application of the second adjacency is the first one. -/
theorem v52_eq : val_main_v52 (F := F) x0 x1 r c v = val_main_v26 (F := F) x0 x1 r c v := rfl
/-- The third application of the second adjacency is the first one. -/
theorem v78_eq : val_main_v78 (F := F) x0 x1 r c v = val_main_v26 (F := F) x0 x1 r c v := rfl
end Same

/-! ## Four one-layer slabs joined along the layer axis -/

/-- Node and feature of a stacked index, at layer zero of a one-layer slab. -/
abbrev inSlab (i : S150000x4x64.Idx) : S150000x1x64.Idx := fun a => match a with
  | ⟨0, _⟩ => ⟨(i 0).val, (i 0).isLt⟩
  | ⟨1, _⟩ => ⟨0, (Nat.zero_lt_one : 0 < 1)⟩
  | ⟨2, _⟩ => ⟨(i 2).val, (i 2).isLt⟩

/-- Reading a table through a one-layer slab at a stacked index's node and feature. -/
theorem slab_idx (i : S150000x4x64.Idx) : idx_main_v79 (inSlab i) = nodeFeat i :=
  funext fun a => match a with
    | ⟨0, _⟩ => rfl
    | ⟨1, _⟩ => rfl

/-- The join of four one-layer slabs reads, at layer `l`, slab `l`. -/
theorem stack4_apply {α : Type} (y0 y1 y2 y3 : S150000x1x64.Idx → α) (i : S150000x4x64.Idx) :
    concatenate S150000x4x64 1 [⟨S150000x1x64, y0⟩, ⟨S150000x1x64, y1⟩, ⟨S150000x1x64, y2⟩, ⟨S150000x1x64, y3⟩] concatenates_S150000x1x64_S150000x1x64_S150000x1x64_S150000x1x64_S150000x4x64_d1 i
      = if (i 1).val = 0 then y0 (inSlab i) else if (i 1).val = 1 then y1 (inSlab i) else if (i 1).val = 2 then y2 (inSlab i) else y3 (inSlab i) := by
  have h4 : (i 1).val < 4 := (i 1).isLt
  have hoff : ∀ b : Fin S150000x1x64.rank, b.cast (rfl : S150000x1x64.rank = S150000x4x64.rank) ≠ (1 : Fin 3) →
      ((inSlab i) b).val = (i (b.cast (rfl : S150000x1x64.rank = S150000x4x64.rank))).val := fun b hb => match b with
    | ⟨0, _⟩ => rfl
    | ⟨1, _⟩ => absurd rfl hb
    | ⟨2, _⟩ => rfl
  by_cases h0 : (i 1).val = 0
  · rw [if_pos h0]
    exact concatenate_apply_piece (t := S150000x4x64) (1 : Fin 3) [⟨S150000x1x64, y0⟩, ⟨S150000x1x64, y1⟩, ⟨S150000x1x64, y2⟩, ⟨S150000x1x64, y3⟩] concatenates_S150000x1x64_S150000x1x64_S150000x1x64_S150000x1x64_S150000x4x64_d1 i 0 (show (0 : Nat) < 4 from by decide) S150000x1x64 y0 rfl rfl 0 rfl (inSlab i) hoff
      (by show 0 + 0 = (i 1).val; omega)
  · rw [if_neg h0]
    by_cases h1 : (i 1).val = 1
    · rw [if_pos h1]
      exact concatenate_apply_piece (t := S150000x4x64) (1 : Fin 3) [⟨S150000x1x64, y0⟩, ⟨S150000x1x64, y1⟩, ⟨S150000x1x64, y2⟩, ⟨S150000x1x64, y3⟩] concatenates_S150000x1x64_S150000x1x64_S150000x1x64_S150000x1x64_S150000x4x64_d1 i 1 (show (1 : Nat) < 4 from by decide) S150000x1x64 y1 rfl rfl 1 rfl (inSlab i) hoff
        (by show 1 + 0 = (i 1).val; omega)
    · rw [if_neg h1]
      by_cases h2 : (i 1).val = 2
      · rw [if_pos h2]
        exact concatenate_apply_piece (t := S150000x4x64) (1 : Fin 3) [⟨S150000x1x64, y0⟩, ⟨S150000x1x64, y1⟩, ⟨S150000x1x64, y2⟩, ⟨S150000x1x64, y3⟩] concatenates_S150000x1x64_S150000x1x64_S150000x1x64_S150000x1x64_S150000x4x64_d1 i 2 (show (2 : Nat) < 4 from by decide) S150000x1x64 y2 rfl rfl 2 rfl (inSlab i) hoff
          (by show 2 + 0 = (i 1).val; omega)
      · rw [if_neg h2]
        exact concatenate_apply_piece (t := S150000x4x64) (1 : Fin 3) [⟨S150000x1x64, y0⟩, ⟨S150000x1x64, y1⟩, ⟨S150000x1x64, y2⟩, ⟨S150000x1x64, y3⟩] concatenates_S150000x1x64_S150000x1x64_S150000x1x64_S150000x1x64_S150000x4x64_d1 i 3 (show (3 : Nat) < 4 from by decide) S150000x1x64 y3 rfl rfl 3 rfl (inSlab i) hoff
          (by show 3 + 0 = (i 1).val; omega)

/-! ## The two stacks -/

/-- The reference's first stack is layer zero against the first propagated table. -/
theorem v83_eq (x0 : (⟨S100000x64, .f32⟩ : BufTy).Contents (Elt F)) (x1 : (⟨S50000x64, .f32⟩ : BufTy).Contents (Elt F))
    (x2 x3 : (⟨S1000000, .i32⟩ : BufTy).Contents (Elt F)) (x4 : (⟨S1000000, .f32⟩ : BufTy).Contents (Elt F)) :
    val_main_v83 (F := F) x0 x1 x2 x3 x4 = stackOf (val_main_v0 (F := F) x0 x1) (val_main_v13 (F := F) x0 x1 x2 x3 x4) := by
  funext i
  unfold val_main_v83 stackOf
  rw [stack4_apply, val_main_v79_apply, val_main_v80_apply, val_main_v81_apply, val_main_v82_apply, v39_eq, v65_eq]
  show (if (i 1).val = 0 then val_main_v0 (F := F) x0 x1 (idx_main_v79 (inSlab i))
      else if (i 1).val = 1 then val_main_v13 (F := F) x0 x1 x2 x3 x4 (idx_main_v79 (inSlab i))
      else if (i 1).val = 2 then val_main_v13 (F := F) x0 x1 x2 x3 x4 (idx_main_v79 (inSlab i))
      else val_main_v13 (F := F) x0 x1 x2 x3 x4 (idx_main_v79 (inSlab i))) = _
  rw [slab_idx]
  by_cases h0 : (i 1).val = 0
  · rw [if_pos h0, if_pos h0]
  · rw [if_neg h0, if_neg h0, ite_self, ite_self]

/-- The reference's second stack is layer zero against the second propagated table. -/
theorem v93_eq (x0 : (⟨S100000x64, .f32⟩ : BufTy).Contents (Elt F)) (x1 : (⟨S50000x64, .f32⟩ : BufTy).Contents (Elt F))
    (x5 x6 : (⟨S1000000, .i32⟩ : BufTy).Contents (Elt F)) (x7 : (⟨S1000000, .f32⟩ : BufTy).Contents (Elt F)) :
    val_main_v93 (F := F) x0 x1 x5 x6 x7 = stackOf (val_main_v0 (F := F) x0 x1) (val_main_v26 (F := F) x0 x1 x5 x6 x7) := by
  funext i
  unfold val_main_v93 stackOf
  rw [stack4_apply, val_main_v89_apply, val_main_v90_apply, val_main_v91_apply, val_main_v92_apply, v52_eq, v78_eq]
  show (if (i 1).val = 0 then val_main_v0 (F := F) x0 x1 (idx_main_v79 (inSlab i))
      else if (i 1).val = 1 then val_main_v26 (F := F) x0 x1 x5 x6 x7 (idx_main_v79 (inSlab i))
      else if (i 1).val = 2 then val_main_v26 (F := F) x0 x1 x5 x6 x7 (idx_main_v79 (inSlab i))
      else val_main_v26 (F := F) x0 x1 x5 x6 x7 (idx_main_v79 (inSlab i))) = _
  rw [slab_idx]
  by_cases h0 : (i 1).val = 0
  · rw [if_pos h0, if_pos h0]
  · rw [if_neg h0, if_neg h0, ite_self, ite_self]

/-! ## The mean -/

/-- Layer `k` of the first stack at node `n`, feature `d`: the stacked index `(n, k, d)` has node and
    feature `(n, d)`. -/
theorem layer_idx (i : S150000x64.Idx) (k : Fin 4) : nodeFeat (idx_main_v84 i k) = i :=
  funext fun a => match a with
    | ⟨0, _⟩ => rfl
    | ⟨1, _⟩ => rfl

/-- The reference's mean over the four layers is the layer mean of layer zero and the first propagated
    table, on the extended reals. -/
theorem v86_eq (x0 : (⟨S100000x64, .f32⟩ : BufTy).Contents (Elt Ideal)) (x1 : (⟨S50000x64, .f32⟩ : BufTy).Contents (Elt Ideal))
    (x2 x3 : (⟨S1000000, .i32⟩ : BufTy).Contents (Elt Ideal)) (x4 : (⟨S1000000, .f32⟩ : BufTy).Contents (Elt Ideal)) :
    val_main_v86 (F := Ideal) x0 x1 x2 x3 x4
      = meanOf (F := Ideal) (val_main_v0 (F := Ideal) x0 x1) (val_main_v13 (F := Ideal) x0 x1 x2 x3 x4) := by
  funext i
  rw [val_main_v86_apply, val_main_v84_apply, val_main_v85_apply, val_main_cst_17_apply, val_main_cst_16_apply, v83_eq]
  unfold meanOf
  simp only [Ideal.hostDivf_def, Ideal.ofBits_def, Ideal.mulf_def, Ideal.addf_def]
  refine Cert.PoolLaw.mean_law _ _ _ ?_ ?_ ?_ ?_
  · show stackOf _ _ (idx_main_v84 i 0) = _
    unfold stackOf
    rw [if_pos (show (idx_main_v84 i 0 (1 : Fin 3)).val = 0 from rfl), layer_idx]
  · show stackOf _ _ (idx_main_v84 i 1) = _
    unfold stackOf
    rw [if_neg (show ¬ (idx_main_v84 i 1 (1 : Fin 3)).val = 0 from (by decide : ¬ (1 : Nat) = 0)), layer_idx]
  · show stackOf _ _ (idx_main_v84 i 2) = _
    unfold stackOf
    rw [if_neg (show ¬ (idx_main_v84 i 2 (1 : Fin 3)).val = 0 from (by decide : ¬ (2 : Nat) = 0)), layer_idx]
  · show stackOf _ _ (idx_main_v84 i 3) = _
    unfold stackOf
    rw [if_neg (show ¬ (idx_main_v84 i 3 (1 : Fin 3)).val = 0 from (by decide : ¬ (3 : Nat) = 0)), layer_idx]

/-- The reference's users' rows are the first cut of the layer mean. -/
theorem users_eq (x0 : (⟨S100000x64, .f32⟩ : BufTy).Contents (Elt Ideal)) (x1 : (⟨S50000x64, .f32⟩ : BufTy).Contents (Elt Ideal))
    (x2 x3 : (⟨S1000000, .i32⟩ : BufTy).Contents (Elt Ideal)) (x4 : (⟨S1000000, .f32⟩ : BufTy).Contents (Elt Ideal)) :
    val_main_v87 (F := Ideal) x0 x1 x2 x3 x4
      = extractStridedSlice S100000x64 ![0, 0]
          (meanOf (F := Ideal) (val_main_v0 (F := Ideal) x0 x1) (val_main_v13 (F := Ideal) x0 x1 x2 x3 x4) : S150000x64.Idx → Elt Ideal .f32)
          slices_S150000x64_S100000x64_0_0 := by
  unfold val_main_v87
  rw [v86_eq]

/-- The reference's items' rows are the second cut of the layer mean. -/
theorem items_eq (x0 : (⟨S100000x64, .f32⟩ : BufTy).Contents (Elt Ideal)) (x1 : (⟨S50000x64, .f32⟩ : BufTy).Contents (Elt Ideal))
    (x2 x3 : (⟨S1000000, .i32⟩ : BufTy).Contents (Elt Ideal)) (x4 : (⟨S1000000, .f32⟩ : BufTy).Contents (Elt Ideal)) :
    val_main_v88 (F := Ideal) x0 x1 x2 x3 x4
      = extractStridedSlice S50000x64 ![100000, 0]
          (meanOf (F := Ideal) (val_main_v0 (F := Ideal) x0 x1) (val_main_v13 (F := Ideal) x0 x1 x2 x3 x4) : S150000x64.Idx → Elt Ideal .f32)
          slices_S150000x64_S50000x64_100000_0 := by
  unfold val_main_v88
  rw [v86_eq]

end Cert.ReferenceIdeal.Pool

end
-- ==== Proof.PoolRefRun.lean ====
/-
  The reference program's run, read back over its stages.

  The reference is a straight line of 114 host operations.  Its first 97 build the layer-zero table and
  apply each of the two sparse adjacencies to it three times; its last 17 give every table a unit layer
  axis, join the slabs four at a time into the two stacks, and take the mean of the first stack and its two
  cuts.  What a buffer holds after the whole line is what it holds after the last 17 operations run from the
  contents the first 97 leave.  So the line is read in those two parts: after the first part each of the
  seven tables is its stage as a function of the arguments; after the second part, from ANY contents, each
  result is the stack, or the cut of the mean of the stack, of the seven tables found.  Composed, every
  result is its stage of the arguments, and the arguments themselves are written by no operation.
-/
import proofs.«110384_j7095285973816_1_alg».proof.Proof.RefRead
import Idealize.ShloMosaic.Lib.StableHlo.Run
import Idealize.ShloMosaic.Lib.Pipeline.Frame

set_option maxRecDepth 8192

noncomputable section

namespace Cert.ReferenceIdeal.PoolRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The first 97 operations: the layer-zero table and the six propagations. -/
abbrev opsA : List (HloOp τ sig (Elt F)) :=
  [ binary main_arg0 main_arg1 main_v0 ((fun a b => concatenate S150000x64 0 [⟨S100000x64, a⟩, ⟨S50000x64, b⟩] concatenates_S100000x64_S50000x64_S150000x64_d0) : (⟨S100000x64, .f32⟩ : BufTy).Contents (Elt F) → (⟨S50000x64, .f32⟩ : BufTy).Contents (Elt F) → (⟨S150000x64, .f32⟩ : BufTy).Contents (Elt F)),
    unary main_arg4 main_v1 (broadcastInDim S1000000x1 ![0] bcast_S1000000_S1000000x1_0 : (⟨S1000000, .f32⟩ : BufTy).Contents (Elt F) → (⟨S1000000x1, .f32⟩ : BufTy).Contents (Elt F)),
    nullary main_c (constantI S_ 32 0#32),
    unary main_c main_v2 (broadcastInDim S1000000 ![] bcast_S_S1000000 : (⟨S_, .i32⟩ : BufTy).Contents (Elt F) → (⟨S1000000, .i32⟩ : BufTy).Contents (Elt F)),
    binary main_arg3 main_v2 main_v3 (cmpi .slt : (⟨S1000000, .i32⟩ : BufTy).Contents (Elt F) → (⟨S1000000, .i32⟩ : BufTy).Contents (Elt F) → (⟨S1000000, .i1⟩ : BufTy).Contents (Elt F)),
    nullary main_c_0 (constantI S_ 32 150000#32),
    unary main_c_0 main_v4 (broadcastInDim S1000000 ![] bcast_S_S1000000 : (⟨S_, .i32⟩ : BufTy).Contents (Elt F) → (⟨S1000000, .i32⟩ : BufTy).Contents (Elt F)),
    binary main_arg3 main_v4 main_v5 (addi : (⟨S1000000, .i32⟩ : BufTy).Contents (Elt F) → (⟨S1000000, .i32⟩ : BufTy).Contents (Elt F) → (⟨S1000000, .i32⟩ : BufTy).Contents (Elt F)),
    ternary main_v3 main_v5 main_arg3 main_v6 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v6 main_v7 (broadcastInDim S1000000x1 ![0] bcast_S1000000_S1000000x1_0 : (⟨S1000000, .i32⟩ : BufTy).Contents (Elt F) → (⟨S1000000x1, .i32⟩ : BufTy).Contents (Elt F)),
    binary main_v0 main_v7 main_v8 ((fun x i => Host.gather gather_S150000x64_S1000000x1_S1000000x64_1_0_n_n_0_1_164 x i) : (⟨S150000x64, .f32⟩ : BufTy).Contents (Elt F) → (⟨S1000000x1, .i32⟩ : BufTy).Contents (Elt F) → (⟨S1000000x64, .f32⟩ : BufTy).Contents (Elt F)),
    unary main_v1 main_v9 (broadcastInDim S1000000x64 ![0, 1] bcast_S1000000x1_S1000000x64_0_1 : (⟨S1000000x1, .f32⟩ : BufTy).Contents (Elt F) → (⟨S1000000x64, .f32⟩ : BufTy).Contents (Elt F)),
    binary main_v9 main_v8 main_v10 (mulf : (⟨S1000000x64, .f32⟩ : BufTy).Contents (Elt F) → (⟨S1000000x64, .f32⟩ : BufTy).Contents (Elt F) → (⟨S1000000x64, .f32⟩ : BufTy).Contents (Elt F)),
    nullary main_cst (constant S_ .f32 0x00000000#32),
    unary main_cst main_v11 (broadcastInDim S150000x64 ![] bcast_S_S150000x64 : (⟨S_, .f32⟩ : BufTy).Contents (Elt F) → (⟨S150000x64, .f32⟩ : BufTy).Contents (Elt F)),
    unary main_arg2 main_v12 (broadcastInDim S1000000x1 ![0] bcast_S1000000_S1000000x1_0 : (⟨S1000000, .i32⟩ : BufTy).Contents (Elt F) → (⟨S1000000x1, .i32⟩ : BufTy).Contents (Elt F)),
    ternary main_v11 main_v12 main_v10 main_v13 ((fun x i u => Host.scatterAdd scatter_S150000x64_S1000000x1_S1000000x64_1_0_0_1 x i u) : (⟨S150000x64, .f32⟩ : BufTy).Contents (Elt F) → (⟨S1000000x1, .i32⟩ : BufTy).Contents (Elt F) → (⟨S1000000x64, .f32⟩ : BufTy).Contents (Elt F) → (⟨S150000x64, .f32⟩ : BufTy).Contents (Elt F)),
    unary main_arg7 main_v14 (broadcastInDim S1000000x1 ![0] bcast_S1000000_S1000000x1_0 : (⟨S1000000, .f32⟩ : BufTy).Contents (Elt F) → (⟨S1000000x1, .f32⟩ : BufTy).Contents (Elt F)),
    nullary main_c_1 (constantI S_ 32 0#32),
    unary main_c_1 main_v15 (broadcastInDim S1000000 ![] bcast_S_S1000000 : (⟨S_, .i32⟩ : BufTy).Contents (Elt F) → (⟨S1000000, .i32⟩ : BufTy).Contents (Elt F)),
    binary main_arg6 main_v15 main_v16 (cmpi .slt : (⟨S1000000, .i32⟩ : BufTy).Contents (Elt F) → (⟨S1000000, .i32⟩ : BufTy).Contents (Elt F) → (⟨S1000000, .i1⟩ : BufTy).Contents (Elt F)),
    nullary main_c_2 (constantI S_ 32 150000#32),
    unary main_c_2 main_v17 (broadcastInDim S1000000 ![] bcast_S_S1000000 : (⟨S_, .i32⟩ : BufTy).Contents (Elt F) → (⟨S1000000, .i32⟩ : BufTy).Contents (Elt F)),
    binary main_arg6 main_v17 main_v18 (addi : (⟨S1000000, .i32⟩ : BufTy).Contents (Elt F) → (⟨S1000000, .i32⟩ : BufTy).Contents (Elt F) → (⟨S1000000, .i32⟩ : BufTy).Contents (Elt F)),
    ternary main_v16 main_v18 main_arg6 main_v19 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v19 main_v20 (broadcastInDim S1000000x1 ![0] bcast_S1000000_S1000000x1_0 : (⟨S1000000, .i32⟩ : BufTy).Contents (Elt F) → (⟨S1000000x1, .i32⟩ : BufTy).Contents (Elt F)),
    binary main_v0 main_v20 main_v21 ((fun x i => Host.gather gather_S150000x64_S1000000x1_S1000000x64_1_0_n_n_0_1_164 x i) : (⟨S150000x64, .f32⟩ : BufTy).Contents (Elt F) → (⟨S1000000x1, .i32⟩ : BufTy).Contents (Elt F) → (⟨S1000000x64, .f32⟩ : BufTy).Contents (Elt F)),
    unary main_v14 main_v22 (broadcastInDim S1000000x64 ![0, 1] bcast_S1000000x1_S1000000x64_0_1 : (⟨S1000000x1, .f32⟩ : BufTy).Contents (Elt F) → (⟨S1000000x64, .f32⟩ : BufTy).Contents (Elt F)),
    binary main_v22 main_v21 main_v23 (mulf : (⟨S1000000x64, .f32⟩ : BufTy).Contents (Elt F) → (⟨S1000000x64, .f32⟩ : BufTy).Contents (Elt F) → (⟨S1000000x64, .f32⟩ : BufTy).Contents (Elt F)),
    nullary main_cst_3 (constant S_ .f32 0x00000000#32),
    unary main_cst_3 main_v24 (broadcastInDim S150000x64 ![] bcast_S_S150000x64 : (⟨S_, .f32⟩ : BufTy).Contents (Elt F) → (⟨S150000x64, .f32⟩ : BufTy).Contents (Elt F)),
    unary main_arg5 main_v25 (broadcastInDim S1000000x1 ![0] bcast_S1000000_S1000000x1_0 : (⟨S1000000, .i32⟩ : BufTy).Contents (Elt F) → (⟨S1000000x1, .i32⟩ : BufTy).Contents (Elt F)),
    ternary main_v24 main_v25 main_v23 main_v26 ((fun x i u => Host.scatterAdd scatter_S150000x64_S1000000x1_S1000000x64_1_0_0_1 x i u) : (⟨S150000x64, .f32⟩ : BufTy).Contents (Elt F) → (⟨S1000000x1, .i32⟩ : BufTy).Contents (Elt F) → (⟨S1000000x64, .f32⟩ : BufTy).Contents (Elt F) → (⟨S150000x64, .f32⟩ : BufTy).Contents (Elt F)),
    unary main_arg4 main_v27 (broadcastInDim S1000000x1 ![0] bcast_S1000000_S1000000x1_0 : (⟨S1000000, .f32⟩ : BufTy).Contents (Elt F) → (⟨S1000000x1, .f32⟩ : BufTy).Contents (Elt F)),
    nullary main_c_4 (constantI S_ 32 0#32),
    unary main_c_4 main_v28 (broadcastInDim S1000000 ![] bcast_S_S1000000 : (⟨S_, .i32⟩ : BufTy).Contents (Elt F) → (⟨S1000000, .i32⟩ : BufTy).Contents (Elt F)),
    binary main_arg3 main_v28 main_v29 (cmpi .slt : (⟨S1000000, .i32⟩ : BufTy).Contents (Elt F) → (⟨S1000000, .i32⟩ : BufTy).Contents (Elt F) → (⟨S1000000, .i1⟩ : BufTy).Contents (Elt F)),
    nullary main_c_5 (constantI S_ 32 150000#32),
    unary main_c_5 main_v30 (broadcastInDim S1000000 ![] bcast_S_S1000000 : (⟨S_, .i32⟩ : BufTy).Contents (Elt F) → (⟨S1000000, .i32⟩ : BufTy).Contents (Elt F)),
    binary main_arg3 main_v30 main_v31 (addi : (⟨S1000000, .i32⟩ : BufTy).Contents (Elt F) → (⟨S1000000, .i32⟩ : BufTy).Contents (Elt F) → (⟨S1000000, .i32⟩ : BufTy).Contents (Elt F)),
    ternary main_v29 main_v31 main_arg3 main_v32 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v32 main_v33 (broadcastInDim S1000000x1 ![0] bcast_S1000000_S1000000x1_0 : (⟨S1000000, .i32⟩ : BufTy).Contents (Elt F) → (⟨S1000000x1, .i32⟩ : BufTy).Contents (Elt F)),
    binary main_v0 main_v33 main_v34 ((fun x i => Host.gather gather_S150000x64_S1000000x1_S1000000x64_1_0_n_n_0_1_164 x i) : (⟨S150000x64, .f32⟩ : BufTy).Contents (Elt F) → (⟨S1000000x1, .i32⟩ : BufTy).Contents (Elt F) → (⟨S1000000x64, .f32⟩ : BufTy).Contents (Elt F)),
    unary main_v27 main_v35 (broadcastInDim S1000000x64 ![0, 1] bcast_S1000000x1_S1000000x64_0_1 : (⟨S1000000x1, .f32⟩ : BufTy).Contents (Elt F) → (⟨S1000000x64, .f32⟩ : BufTy).Contents (Elt F)),
    binary main_v35 main_v34 main_v36 (mulf : (⟨S1000000x64, .f32⟩ : BufTy).Contents (Elt F) → (⟨S1000000x64, .f32⟩ : BufTy).Contents (Elt F) → (⟨S1000000x64, .f32⟩ : BufTy).Contents (Elt F)),
    nullary main_cst_6 (constant S_ .f32 0x00000000#32),
    unary main_cst_6 main_v37 (broadcastInDim S150000x64 ![] bcast_S_S150000x64 : (⟨S_, .f32⟩ : BufTy).Contents (Elt F) → (⟨S150000x64, .f32⟩ : BufTy).Contents (Elt F)),
    unary main_arg2 main_v38 (broadcastInDim S1000000x1 ![0] bcast_S1000000_S1000000x1_0 : (⟨S1000000, .i32⟩ : BufTy).Contents (Elt F) → (⟨S1000000x1, .i32⟩ : BufTy).Contents (Elt F)),
    ternary main_v37 main_v38 main_v36 main_v39 ((fun x i u => Host.scatterAdd scatter_S150000x64_S1000000x1_S1000000x64_1_0_0_1 x i u) : (⟨S150000x64, .f32⟩ : BufTy).Contents (Elt F) → (⟨S1000000x1, .i32⟩ : BufTy).Contents (Elt F) → (⟨S1000000x64, .f32⟩ : BufTy).Contents (Elt F) → (⟨S150000x64, .f32⟩ : BufTy).Contents (Elt F)),
    unary main_arg7 main_v40 (broadcastInDim S1000000x1 ![0] bcast_S1000000_S1000000x1_0 : (⟨S1000000, .f32⟩ : BufTy).Contents (Elt F) → (⟨S1000000x1, .f32⟩ : BufTy).Contents (Elt F)),
    nullary main_c_7 (constantI S_ 32 0#32),
    unary main_c_7 main_v41 (broadcastInDim S1000000 ![] bcast_S_S1000000 : (⟨S_, .i32⟩ : BufTy).Contents (Elt F) → (⟨S1000000, .i32⟩ : BufTy).Contents (Elt F)),
    binary main_arg6 main_v41 main_v42 (cmpi .slt : (⟨S1000000, .i32⟩ : BufTy).Contents (Elt F) → (⟨S1000000, .i32⟩ : BufTy).Contents (Elt F) → (⟨S1000000, .i1⟩ : BufTy).Contents (Elt F)),
    nullary main_c_8 (constantI S_ 32 150000#32),
    unary main_c_8 main_v43 (broadcastInDim S1000000 ![] bcast_S_S1000000 : (⟨S_, .i32⟩ : BufTy).Contents (Elt F) → (⟨S1000000, .i32⟩ : BufTy).Contents (Elt F)),
    binary main_arg6 main_v43 main_v44 (addi : (⟨S1000000, .i32⟩ : BufTy).Contents (Elt F) → (⟨S1000000, .i32⟩ : BufTy).Contents (Elt F) → (⟨S1000000, .i32⟩ : BufTy).Contents (Elt F)),
    ternary main_v42 main_v44 main_arg6 main_v45 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v45 main_v46 (broadcastInDim S1000000x1 ![0] bcast_S1000000_S1000000x1_0 : (⟨S1000000, .i32⟩ : BufTy).Contents (Elt F) → (⟨S1000000x1, .i32⟩ : BufTy).Contents (Elt F)),
    binary main_v0 main_v46 main_v47 ((fun x i => Host.gather gather_S150000x64_S1000000x1_S1000000x64_1_0_n_n_0_1_164 x i) : (⟨S150000x64, .f32⟩ : BufTy).Contents (Elt F) → (⟨S1000000x1, .i32⟩ : BufTy).Contents (Elt F) → (⟨S1000000x64, .f32⟩ : BufTy).Contents (Elt F)),
    unary main_v40 main_v48 (broadcastInDim S1000000x64 ![0, 1] bcast_S1000000x1_S1000000x64_0_1 : (⟨S1000000x1, .f32⟩ : BufTy).Contents (Elt F) → (⟨S1000000x64, .f32⟩ : BufTy).Contents (Elt F)),
    binary main_v48 main_v47 main_v49 (mulf : (⟨S1000000x64, .f32⟩ : BufTy).Contents (Elt F) → (⟨S1000000x64, .f32⟩ : BufTy).Contents (Elt F) → (⟨S1000000x64, .f32⟩ : BufTy).Contents (Elt F)),
    nullary main_cst_9 (constant S_ .f32 0x00000000#32),
    unary main_cst_9 main_v50 (broadcastInDim S150000x64 ![] bcast_S_S150000x64 : (⟨S_, .f32⟩ : BufTy).Contents (Elt F) → (⟨S150000x64, .f32⟩ : BufTy).Contents (Elt F)),
    unary main_arg5 main_v51 (broadcastInDim S1000000x1 ![0] bcast_S1000000_S1000000x1_0 : (⟨S1000000, .i32⟩ : BufTy).Contents (Elt F) → (⟨S1000000x1, .i32⟩ : BufTy).Contents (Elt F)),
    ternary main_v50 main_v51 main_v49 main_v52 ((fun x i u => Host.scatterAdd scatter_S150000x64_S1000000x1_S1000000x64_1_0_0_1 x i u) : (⟨S150000x64, .f32⟩ : BufTy).Contents (Elt F) → (⟨S1000000x1, .i32⟩ : BufTy).Contents (Elt F) → (⟨S1000000x64, .f32⟩ : BufTy).Contents (Elt F) → (⟨S150000x64, .f32⟩ : BufTy).Contents (Elt F)),
    unary main_arg4 main_v53 (broadcastInDim S1000000x1 ![0] bcast_S1000000_S1000000x1_0 : (⟨S1000000, .f32⟩ : BufTy).Contents (Elt F) → (⟨S1000000x1, .f32⟩ : BufTy).Contents (Elt F)),
    nullary main_c_10 (constantI S_ 32 0#32),
    unary main_c_10 main_v54 (broadcastInDim S1000000 ![] bcast_S_S1000000 : (⟨S_, .i32⟩ : BufTy).Contents (Elt F) → (⟨S1000000, .i32⟩ : BufTy).Contents (Elt F)),
    binary main_arg3 main_v54 main_v55 (cmpi .slt : (⟨S1000000, .i32⟩ : BufTy).Contents (Elt F) → (⟨S1000000, .i32⟩ : BufTy).Contents (Elt F) → (⟨S1000000, .i1⟩ : BufTy).Contents (Elt F)),
    nullary main_c_11 (constantI S_ 32 150000#32),
    unary main_c_11 main_v56 (broadcastInDim S1000000 ![] bcast_S_S1000000 : (⟨S_, .i32⟩ : BufTy).Contents (Elt F) → (⟨S1000000, .i32⟩ : BufTy).Contents (Elt F)),
    binary main_arg3 main_v56 main_v57 (addi : (⟨S1000000, .i32⟩ : BufTy).Contents (Elt F) → (⟨S1000000, .i32⟩ : BufTy).Contents (Elt F) → (⟨S1000000, .i32⟩ : BufTy).Contents (Elt F)),
    ternary main_v55 main_v57 main_arg3 main_v58 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v58 main_v59 (broadcastInDim S1000000x1 ![0] bcast_S1000000_S1000000x1_0 : (⟨S1000000, .i32⟩ : BufTy).Contents (Elt F) → (⟨S1000000x1, .i32⟩ : BufTy).Contents (Elt F)),
    binary main_v0 main_v59 main_v60 ((fun x i => Host.gather gather_S150000x64_S1000000x1_S1000000x64_1_0_n_n_0_1_164 x i) : (⟨S150000x64, .f32⟩ : BufTy).Contents (Elt F) → (⟨S1000000x1, .i32⟩ : BufTy).Contents (Elt F) → (⟨S1000000x64, .f32⟩ : BufTy).Contents (Elt F)),
    unary main_v53 main_v61 (broadcastInDim S1000000x64 ![0, 1] bcast_S1000000x1_S1000000x64_0_1 : (⟨S1000000x1, .f32⟩ : BufTy).Contents (Elt F) → (⟨S1000000x64, .f32⟩ : BufTy).Contents (Elt F)),
    binary main_v61 main_v60 main_v62 (mulf : (⟨S1000000x64, .f32⟩ : BufTy).Contents (Elt F) → (⟨S1000000x64, .f32⟩ : BufTy).Contents (Elt F) → (⟨S1000000x64, .f32⟩ : BufTy).Contents (Elt F)),
    nullary main_cst_12 (constant S_ .f32 0x00000000#32),
    unary main_cst_12 main_v63 (broadcastInDim S150000x64 ![] bcast_S_S150000x64 : (⟨S_, .f32⟩ : BufTy).Contents (Elt F) → (⟨S150000x64, .f32⟩ : BufTy).Contents (Elt F)),
    unary main_arg2 main_v64 (broadcastInDim S1000000x1 ![0] bcast_S1000000_S1000000x1_0 : (⟨S1000000, .i32⟩ : BufTy).Contents (Elt F) → (⟨S1000000x1, .i32⟩ : BufTy).Contents (Elt F)),
    ternary main_v63 main_v64 main_v62 main_v65 ((fun x i u => Host.scatterAdd scatter_S150000x64_S1000000x1_S1000000x64_1_0_0_1 x i u) : (⟨S150000x64, .f32⟩ : BufTy).Contents (Elt F) → (⟨S1000000x1, .i32⟩ : BufTy).Contents (Elt F) → (⟨S1000000x64, .f32⟩ : BufTy).Contents (Elt F) → (⟨S150000x64, .f32⟩ : BufTy).Contents (Elt F)),
    unary main_arg7 main_v66 (broadcastInDim S1000000x1 ![0] bcast_S1000000_S1000000x1_0 : (⟨S1000000, .f32⟩ : BufTy).Contents (Elt F) → (⟨S1000000x1, .f32⟩ : BufTy).Contents (Elt F)),
    nullary main_c_13 (constantI S_ 32 0#32),
    unary main_c_13 main_v67 (broadcastInDim S1000000 ![] bcast_S_S1000000 : (⟨S_, .i32⟩ : BufTy).Contents (Elt F) → (⟨S1000000, .i32⟩ : BufTy).Contents (Elt F)),
    binary main_arg6 main_v67 main_v68 (cmpi .slt : (⟨S1000000, .i32⟩ : BufTy).Contents (Elt F) → (⟨S1000000, .i32⟩ : BufTy).Contents (Elt F) → (⟨S1000000, .i1⟩ : BufTy).Contents (Elt F)),
    nullary main_c_14 (constantI S_ 32 150000#32),
    unary main_c_14 main_v69 (broadcastInDim S1000000 ![] bcast_S_S1000000 : (⟨S_, .i32⟩ : BufTy).Contents (Elt F) → (⟨S1000000, .i32⟩ : BufTy).Contents (Elt F)),
    binary main_arg6 main_v69 main_v70 (addi : (⟨S1000000, .i32⟩ : BufTy).Contents (Elt F) → (⟨S1000000, .i32⟩ : BufTy).Contents (Elt F) → (⟨S1000000, .i32⟩ : BufTy).Contents (Elt F)),
    ternary main_v68 main_v70 main_arg6 main_v71 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v71 main_v72 (broadcastInDim S1000000x1 ![0] bcast_S1000000_S1000000x1_0 : (⟨S1000000, .i32⟩ : BufTy).Contents (Elt F) → (⟨S1000000x1, .i32⟩ : BufTy).Contents (Elt F)),
    binary main_v0 main_v72 main_v73 ((fun x i => Host.gather gather_S150000x64_S1000000x1_S1000000x64_1_0_n_n_0_1_164 x i) : (⟨S150000x64, .f32⟩ : BufTy).Contents (Elt F) → (⟨S1000000x1, .i32⟩ : BufTy).Contents (Elt F) → (⟨S1000000x64, .f32⟩ : BufTy).Contents (Elt F)),
    unary main_v66 main_v74 (broadcastInDim S1000000x64 ![0, 1] bcast_S1000000x1_S1000000x64_0_1 : (⟨S1000000x1, .f32⟩ : BufTy).Contents (Elt F) → (⟨S1000000x64, .f32⟩ : BufTy).Contents (Elt F)),
    binary main_v74 main_v73 main_v75 (mulf : (⟨S1000000x64, .f32⟩ : BufTy).Contents (Elt F) → (⟨S1000000x64, .f32⟩ : BufTy).Contents (Elt F) → (⟨S1000000x64, .f32⟩ : BufTy).Contents (Elt F)),
    nullary main_cst_15 (constant S_ .f32 0x00000000#32),
    unary main_cst_15 main_v76 (broadcastInDim S150000x64 ![] bcast_S_S150000x64 : (⟨S_, .f32⟩ : BufTy).Contents (Elt F) → (⟨S150000x64, .f32⟩ : BufTy).Contents (Elt F)),
    unary main_arg5 main_v77 (broadcastInDim S1000000x1 ![0] bcast_S1000000_S1000000x1_0 : (⟨S1000000, .i32⟩ : BufTy).Contents (Elt F) → (⟨S1000000x1, .i32⟩ : BufTy).Contents (Elt F)),
    ternary main_v76 main_v77 main_v75 main_v78 ((fun x i u => Host.scatterAdd scatter_S150000x64_S1000000x1_S1000000x64_1_0_0_1 x i u) : (⟨S150000x64, .f32⟩ : BufTy).Contents (Elt F) → (⟨S1000000x1, .i32⟩ : BufTy).Contents (Elt F) → (⟨S1000000x64, .f32⟩ : BufTy).Contents (Elt F) → (⟨S150000x64, .f32⟩ : BufTy).Contents (Elt F)) ]

/-- The last 17 operations: the slabs, the two stacks, the mean and its two cuts. -/
abbrev opsT : List (HloOp τ sig (Elt F)) :=
  [ unary main_v0 main_v79 (broadcastInDim S150000x1x64 ![0, 2] bcast_S150000x64_S150000x1x64_0_2 : (⟨S150000x64, .f32⟩ : BufTy).Contents (Elt F) → (⟨S150000x1x64, .f32⟩ : BufTy).Contents (Elt F)),
    unary main_v13 main_v80 (broadcastInDim S150000x1x64 ![0, 2] bcast_S150000x64_S150000x1x64_0_2 : (⟨S150000x64, .f32⟩ : BufTy).Contents (Elt F) → (⟨S150000x1x64, .f32⟩ : BufTy).Contents (Elt F)),
    unary main_v39 main_v81 (broadcastInDim S150000x1x64 ![0, 2] bcast_S150000x64_S150000x1x64_0_2 : (⟨S150000x64, .f32⟩ : BufTy).Contents (Elt F) → (⟨S150000x1x64, .f32⟩ : BufTy).Contents (Elt F)),
    unary main_v65 main_v82 (broadcastInDim S150000x1x64 ![0, 2] bcast_S150000x64_S150000x1x64_0_2 : (⟨S150000x64, .f32⟩ : BufTy).Contents (Elt F) → (⟨S150000x1x64, .f32⟩ : BufTy).Contents (Elt F)),
    nary ![main_v79, main_v80, main_v81, main_v82] main_v83 (fun u => concatenate S150000x4x64 1 [⟨S150000x1x64, u 0⟩, ⟨S150000x1x64, u 1⟩, ⟨S150000x1x64, u 2⟩, ⟨S150000x1x64, u 3⟩] concatenates_S150000x1x64_S150000x1x64_S150000x1x64_S150000x1x64_S150000x4x64_d1),
    nullary main_cst_16 (constant S_ .f32 0x00000000#32),
    binary main_v83 main_cst_16 main_v84 ((fun x v => Host.reduceAdd x v reducesTo_S150000x4x64_S150000x64_d1 h_S_) : (⟨S150000x4x64, .f32⟩ : BufTy).Contents (Elt F) → (⟨S_, .f32⟩ : BufTy).Contents (Elt F) → (⟨S150000x64, .f32⟩ : BufTy).Contents (Elt F)),
    nullary main_cst_17 (constant S_ .f32 0x40800000#32),
    unary main_cst_17 main_v85 (broadcastInDim S150000x64 ![] bcast_S_S150000x64 : (⟨S_, .f32⟩ : BufTy).Contents (Elt F) → (⟨S150000x64, .f32⟩ : BufTy).Contents (Elt F)),
    binary main_v84 main_v85 main_v86 (Host.divf : (⟨S150000x64, .f32⟩ : BufTy).Contents (Elt F) → (⟨S150000x64, .f32⟩ : BufTy).Contents (Elt F) → (⟨S150000x64, .f32⟩ : BufTy).Contents (Elt F)),
    unary main_v86 main_v87 ((extractStridedSlice S100000x64 ![0, 0] · slices_S150000x64_S100000x64_0_0) : (⟨S150000x64, .f32⟩ : BufTy).Contents (Elt F) → (⟨S100000x64, .f32⟩ : BufTy).Contents (Elt F)),
    unary main_v86 main_v88 ((extractStridedSlice S50000x64 ![100000, 0] · slices_S150000x64_S50000x64_100000_0) : (⟨S150000x64, .f32⟩ : BufTy).Contents (Elt F) → (⟨S50000x64, .f32⟩ : BufTy).Contents (Elt F)),
    unary main_v0 main_v89 (broadcastInDim S150000x1x64 ![0, 2] bcast_S150000x64_S150000x1x64_0_2 : (⟨S150000x64, .f32⟩ : BufTy).Contents (Elt F) → (⟨S150000x1x64, .f32⟩ : BufTy).Contents (Elt F)),
    unary main_v26 main_v90 (broadcastInDim S150000x1x64 ![0, 2] bcast_S150000x64_S150000x1x64_0_2 : (⟨S150000x64, .f32⟩ : BufTy).Contents (Elt F) → (⟨S150000x1x64, .f32⟩ : BufTy).Contents (Elt F)),
    unary main_v52 main_v91 (broadcastInDim S150000x1x64 ![0, 2] bcast_S150000x64_S150000x1x64_0_2 : (⟨S150000x64, .f32⟩ : BufTy).Contents (Elt F) → (⟨S150000x1x64, .f32⟩ : BufTy).Contents (Elt F)),
    unary main_v78 main_v92 (broadcastInDim S150000x1x64 ![0, 2] bcast_S150000x64_S150000x1x64_0_2 : (⟨S150000x64, .f32⟩ : BufTy).Contents (Elt F) → (⟨S150000x1x64, .f32⟩ : BufTy).Contents (Elt F)),
    nary ![main_v89, main_v90, main_v91, main_v92] main_v93 (fun u => concatenate S150000x4x64 1 [⟨S150000x1x64, u 0⟩, ⟨S150000x1x64, u 1⟩, ⟨S150000x1x64, u 2⟩, ⟨S150000x1x64, u 3⟩] concatenates_S150000x1x64_S150000x1x64_S150000x1x64_S150000x1x64_S150000x4x64_d1) ]

set_option maxHeartbeats 4000000 in
/-- The whole line is the first part followed by the second. -/
theorem ops_split : (ops : List (HloOp τ sig (Elt F))) = opsA ++ opsT := rfl

/-! ## After the first part: the seven tables are their stages -/

section First
variable (V : Valuation τ sig (Elt F))

set_option maxHeartbeats 4000000 in
theorem found_main_v0 : after opsA V (Proc.devRef .tc main_v0) = val_main_v0 (F := F) (V (Proc.devRef .tc main_arg0)) (V (Proc.devRef .tc main_arg1)) := by
  after_results_simp <;> rfl
set_option maxHeartbeats 4000000 in
theorem found_main_v13 : after opsA V (Proc.devRef .tc main_v13) = val_main_v13 (F := F) (V (Proc.devRef .tc main_arg0)) (V (Proc.devRef .tc main_arg1)) (V (Proc.devRef .tc main_arg2)) (V (Proc.devRef .tc main_arg3)) (V (Proc.devRef .tc main_arg4)) := by
  after_results_simp <;> rfl
set_option maxHeartbeats 4000000 in
theorem found_main_v39 : after opsA V (Proc.devRef .tc main_v39) = val_main_v39 (F := F) (V (Proc.devRef .tc main_arg0)) (V (Proc.devRef .tc main_arg1)) (V (Proc.devRef .tc main_arg2)) (V (Proc.devRef .tc main_arg3)) (V (Proc.devRef .tc main_arg4)) := by
  after_results_simp <;> rfl
set_option maxHeartbeats 4000000 in
theorem found_main_v65 : after opsA V (Proc.devRef .tc main_v65) = val_main_v65 (F := F) (V (Proc.devRef .tc main_arg0)) (V (Proc.devRef .tc main_arg1)) (V (Proc.devRef .tc main_arg2)) (V (Proc.devRef .tc main_arg3)) (V (Proc.devRef .tc main_arg4)) := by
  after_results_simp <;> rfl
set_option maxHeartbeats 4000000 in
theorem found_main_v26 : after opsA V (Proc.devRef .tc main_v26) = val_main_v26 (F := F) (V (Proc.devRef .tc main_arg0)) (V (Proc.devRef .tc main_arg1)) (V (Proc.devRef .tc main_arg5)) (V (Proc.devRef .tc main_arg6)) (V (Proc.devRef .tc main_arg7)) := by
  after_results_simp <;> rfl
set_option maxHeartbeats 4000000 in
theorem found_main_v52 : after opsA V (Proc.devRef .tc main_v52) = val_main_v52 (F := F) (V (Proc.devRef .tc main_arg0)) (V (Proc.devRef .tc main_arg1)) (V (Proc.devRef .tc main_arg5)) (V (Proc.devRef .tc main_arg6)) (V (Proc.devRef .tc main_arg7)) := by
  after_results_simp <;> rfl
set_option maxHeartbeats 4000000 in
theorem found_main_v78 : after opsA V (Proc.devRef .tc main_v78) = val_main_v78 (F := F) (V (Proc.devRef .tc main_arg0)) (V (Proc.devRef .tc main_arg1)) (V (Proc.devRef .tc main_arg5)) (V (Proc.devRef .tc main_arg6)) (V (Proc.devRef .tc main_arg7)) := by
  after_results_simp <;> rfl

end First

/-! ## After the second part, from any contents -/

/-- Four tables, each given a unit layer axis, joined along it. -/
abbrev stackT (y0 y1 y2 y3 : (⟨S150000x64, .f32⟩ : BufTy).Contents (Elt F)) : (⟨S150000x4x64, .f32⟩ : BufTy).Contents (Elt F) :=
  concatenate S150000x4x64 1 [⟨S150000x1x64, broadcastInDim S150000x1x64 ![0, 2] bcast_S150000x64_S150000x1x64_0_2 y0⟩,
    ⟨S150000x1x64, broadcastInDim S150000x1x64 ![0, 2] bcast_S150000x64_S150000x1x64_0_2 y1⟩,
    ⟨S150000x1x64, broadcastInDim S150000x1x64 ![0, 2] bcast_S150000x64_S150000x1x64_0_2 y2⟩,
    ⟨S150000x1x64, broadcastInDim S150000x1x64 ![0, 2] bcast_S150000x64_S150000x1x64_0_2 y3⟩]
    concatenates_S150000x1x64_S150000x1x64_S150000x1x64_S150000x1x64_S150000x4x64_d1

/-- The sum over the layers from zero, divided by four. -/
abbrev meanT (y : (⟨S150000x4x64, .f32⟩ : BufTy).Contents (Elt F)) : (⟨S150000x64, .f32⟩ : BufTy).Contents (Elt F) :=
  Host.divf (Host.reduceAdd y (val_main_cst_16 (F := F)) reducesTo_S150000x4x64_S150000x64_d1 h_S_) (val_main_v85 (F := F))

section Second
variable (W : Valuation τ sig (Elt F))

/-- The first stack. -/
theorem tail_v83 : after opsT W (Proc.devRef .tc main_v83)
    = stackT (W (Proc.devRef .tc main_v0)) (W (Proc.devRef .tc main_v13)) (W (Proc.devRef .tc main_v39)) (W (Proc.devRef .tc main_v65)) := by
  after_results <;> rfl

/-- The second stack. -/
theorem tail_v93 : after opsT W (Proc.devRef .tc main_v93)
    = stackT (W (Proc.devRef .tc main_v0)) (W (Proc.devRef .tc main_v26)) (W (Proc.devRef .tc main_v52)) (W (Proc.devRef .tc main_v78)) := by
  after_results <;> rfl

/-- The users' rows of the mean of the first stack. -/
theorem tail_v87 : after opsT W (Proc.devRef .tc main_v87)
    = extractStridedSlice S100000x64 ![0, 0] (meanT (stackT (W (Proc.devRef .tc main_v0)) (W (Proc.devRef .tc main_v13)) (W (Proc.devRef .tc main_v39)) (W (Proc.devRef .tc main_v65))))
        slices_S150000x64_S100000x64_0_0 := by
  after_results <;> rfl

/-- The items' rows of the mean of the first stack. -/
theorem tail_v88 : after opsT W (Proc.devRef .tc main_v88)
    = extractStridedSlice S50000x64 ![100000, 0] (meanT (stackT (W (Proc.devRef .tc main_v0)) (W (Proc.devRef .tc main_v13)) (W (Proc.devRef .tc main_v39)) (W (Proc.devRef .tc main_v65))))
        slices_S150000x64_S50000x64_100000_0 := by
  after_results <;> rfl

end Second

/-! ## After the whole line -/

section Whole
variable (V : Valuation τ sig (Elt F))

theorem after_v83 : after ops V (Proc.devRef .tc main_v83) = val_main_v83 (F := F) (V (Proc.devRef .tc main_arg0)) (V (Proc.devRef .tc main_arg1)) (V (Proc.devRef .tc main_arg2)) (V (Proc.devRef .tc main_arg3)) (V (Proc.devRef .tc main_arg4)) := by
  rw [ops_split, StableHlo.after_append, tail_v83, found_main_v0, found_main_v13, found_main_v39, found_main_v65]
  rfl

theorem after_v93 : after ops V (Proc.devRef .tc main_v93) = val_main_v93 (F := F) (V (Proc.devRef .tc main_arg0)) (V (Proc.devRef .tc main_arg1)) (V (Proc.devRef .tc main_arg5)) (V (Proc.devRef .tc main_arg6)) (V (Proc.devRef .tc main_arg7)) := by
  rw [ops_split, StableHlo.after_append, tail_v93, found_main_v0, found_main_v26, found_main_v52, found_main_v78]
  rfl

theorem after_v87 : after ops V (Proc.devRef .tc main_v87) = val_main_v87 (F := F) (V (Proc.devRef .tc main_arg0)) (V (Proc.devRef .tc main_arg1)) (V (Proc.devRef .tc main_arg2)) (V (Proc.devRef .tc main_arg3)) (V (Proc.devRef .tc main_arg4)) := by
  rw [ops_split, StableHlo.after_append, tail_v87, found_main_v0, found_main_v13, found_main_v39, found_main_v65]
  rfl

theorem after_v88 : after ops V (Proc.devRef .tc main_v88) = val_main_v88 (F := F) (V (Proc.devRef .tc main_arg0)) (V (Proc.devRef .tc main_arg1)) (V (Proc.devRef .tc main_arg2)) (V (Proc.devRef .tc main_arg3)) (V (Proc.devRef .tc main_arg4)) := by
  rw [ops_split, StableHlo.after_append, tail_v88, found_main_v0, found_main_v13, found_main_v39, found_main_v65]
  rfl

set_option maxHeartbeats 4000000 in
/-- No operation writes argument 0. -/
theorem after_arg0 : after ops V (Proc.devRef .tc main_arg0) = V (Proc.devRef .tc main_arg0) := by
  after_results_simp <;> rfl
set_option maxHeartbeats 4000000 in
/-- No operation writes argument 1. -/
theorem after_arg1 : after ops V (Proc.devRef .tc main_arg1) = V (Proc.devRef .tc main_arg1) := by
  after_results_simp <;> rfl
set_option maxHeartbeats 4000000 in
/-- No operation writes argument 2. -/
theorem after_arg2 : after ops V (Proc.devRef .tc main_arg2) = V (Proc.devRef .tc main_arg2) := by
  after_results_simp <;> rfl
set_option maxHeartbeats 4000000 in
/-- No operation writes argument 3. -/
theorem after_arg3 : after ops V (Proc.devRef .tc main_arg3) = V (Proc.devRef .tc main_arg3) := by
  after_results_simp <;> rfl
set_option maxHeartbeats 4000000 in
/-- No operation writes argument 4. -/
theorem after_arg4 : after ops V (Proc.devRef .tc main_arg4) = V (Proc.devRef .tc main_arg4) := by
  after_results_simp <;> rfl
set_option maxHeartbeats 4000000 in
/-- No operation writes argument 5. -/
theorem after_arg5 : after ops V (Proc.devRef .tc main_arg5) = V (Proc.devRef .tc main_arg5) := by
  after_results_simp <;> rfl
set_option maxHeartbeats 4000000 in
/-- No operation writes argument 6. -/
theorem after_arg6 : after ops V (Proc.devRef .tc main_arg6) = V (Proc.devRef .tc main_arg6) := by
  after_results_simp <;> rfl
set_option maxHeartbeats 4000000 in
/-- No operation writes argument 7. -/
theorem after_arg7 : after ops V (Proc.devRef .tc main_arg7) = V (Proc.devRef .tc main_arg7) := by
  after_results_simp <;> rfl

end Whole

/-- Every weakly fair execution of the reference terminates with each result at its stage of the arguments,
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87) = val_main_v87 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v88) = val_main_v88 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v83) = val_main_v83 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v93) = val_main_v93 (F := F) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v87).trans (after_v87 _), (h c main_v88).trans (after_v88 _),
      (h c main_v83).trans (after_v83 _), (h c main_v93).trans (after_v93 _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _)⟩)
    (run_seq scopedRefs_eq scopedSems_eq defs main (fun _ => ops) main_eq (fun _ => ops_sub) m ρ)

end Cert.ReferenceIdeal.PoolRun

end
-- ==== Proof.PoolBridge.lean ====
/-
  The two idealized programs compute the same four results.

  Before its region the kernel program builds, on the host, the layer-zero table (users stacked on items)
  and the two propagated tables, with the very operations the reference uses for them: read back, the
  arrays its region finds ARE the reference's stages of the same arguments (the gathers and scatter-adds
  stay closed: the two sides are the same term).  The kernel's results are the users' and items' rows of
  `meanOf` and two `stackOf`s of those arrays; the reference's are the same functions of its stages.
  From memories that agree on the eight arguments both runs therefore end with equal results.
-/
import proofs.«110384_j7095285973816_1_alg».proof.Defs
import proofs.«110384_j7095285973816_1_alg».proof.Proof.Gen.Pre_finite_inputs
import proofs.«110384_j7095285973816_1_alg».proof.Proof.PoolRun
import proofs.«110384_j7095285973816_1_alg».proof.Proof.PoolRef
import proofs.«110384_j7095285973816_1_alg».proof.Proof.PoolRefRun

set_option maxRecDepth 16384

noncomputable section

namespace Cert.Proof.Pool

open Idealize.ShloMosaic Idealize.ShloMosaic.TcCoe Idealize.SL.Sem Idealize.ShloMosaic.StableHlo
open Cert.PoolSpec

/-! ## The arrays the region finds are the reference's stages -/

section Found
variable {F : FTy → Type} [FloatOps F]
variable (m : (ℓ : Loc Cert.KernelIdeal.nD Cert.KernelIdeal.τ Cert.KernelIdeal.sig) → Buf (Elt F) ℓ) (c : Dev Cert.KernelIdeal.nD)

/-- The layer-zero table: users stacked on items. -/
theorem found_ego : Cert.KernelIdeal.Gen.V m c Cert.KernelIdeal.main_v0 = Cert.ReferenceIdeal.ReadP.val_main_v0 (F := F) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) := by
  show StableHlo.after Cert.KernelIdeal.Gen.hostOps0 (fun b => m (c, b)) (Proc.devRef .tc Cert.KernelIdeal.main_v0) = _
  after_results
  rfl

set_option maxHeartbeats 4000000 in
/-- The first adjacency applied to the layer-zero table. -/
theorem found_adj : Cert.KernelIdeal.Gen.V m c Cert.KernelIdeal.main_v13
    = Cert.ReferenceIdeal.ReadP.val_main_v13 (F := F) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  show StableHlo.after Cert.KernelIdeal.Gen.hostOps0 (fun b => m (c, b)) (Proc.devRef .tc Cert.KernelIdeal.main_v13) = _
  after_results_simp <;> rfl

set_option maxHeartbeats 4000000 in
/-- The second adjacency applied to the layer-zero table. -/
theorem found_radj : Cert.KernelIdeal.Gen.V m c Cert.KernelIdeal.main_v26
    = Cert.ReferenceIdeal.ReadP.val_main_v26 (F := F) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  show StableHlo.after Cert.KernelIdeal.Gen.hostOps0 (fun b => m (c, b)) (Proc.devRef .tc Cert.KernelIdeal.main_v26) = _
  after_results_simp <;> rfl

end Found

/-! ## The value claim -/

/-- On the extended reals the kernel program and the reference, run from memories agreeing on the arguments,
    end with equal results: the users' and items' rows of the layer mean and the two layer stacks. -/
theorem algebraic : Cert.algebraic_KernelIdeal_ReferenceIdeal := by
  intro m ρ m' ρ' _ hagree
  refine ⟨_, _, _, _, Cert.KernelIdeal.Pool.run (F := Ideal) m ρ, ?_⟩
  refine (θ_run Cert.ReferenceIdeal.defs _ _).mono (fun _ h c => ?_) (Cert.ReferenceIdeal.PoolRun.run (F := Ideal) m' ρ')
  obtain ⟨h0, h1, h2, h3, hargs⟩ := h c
  obtain ⟨a0, a1, a2, a3, a4, a5, a6, a7⟩ := hagree c
  refine ⟨h0.trans ?_, h1.trans ?_, h2.trans ?_, h3.trans ?_, hargs⟩
  · rw [a0, a1, a2, a3, a4, Cert.ReferenceIdeal.Pool.users_eq, found_ego m c, found_adj m c]
  · rw [a0, a1, a2, a3, a4, Cert.ReferenceIdeal.Pool.items_eq, found_ego m c, found_adj m c]
  · rw [a0, a1, a2, a3, a4, Cert.ReferenceIdeal.Pool.v83_eq, found_ego m c, found_adj m c]
  · rw [a0, a1, a5, a6, a7, Cert.ReferenceIdeal.Pool.v93_eq, found_ego m c, found_radj m c]

end Cert.Proof.Pool

end
-- ==== Proof.lean ====
/- The proof of `Cert.Claim`: a layer-mean pooling kernel over a bipartite graph's embeddings against its jnp
   reference.

   Both programs stack the user and item embedding tables into one table `e` over the 150000 nodes and apply
   two sparse adjacencies to it (gather the source rows, scale by the edge values, scatter-add into the
   destination rows), giving two propagated tables `a` and `r`.  The reference repeats each propagation for
   three layers without ever updating `e`, stacks `[e, a, a, a]` and `[e, r, r, r]`, and returns the mean of
   the first stack over its four layers, cut into the users' and the items' rows, with the two stacks.  The
   kernel propagates once per adjacency and its region, fifty blocks of 3000 nodes, writes
   `(e + 3 * a) * (1/4)` and the two stacks directly.

   * The three frames: the kernel programs' are generated whole; the reference's is its run (Proof/PoolRefRun.lean) with
     the results dropped.
   * The kernel's idealization rewrote no operation, so it preserves the kernel trivially.
   * The value claim (Proof/PoolBridge.lean): the arrays the region finds are the reference's own stages of
     the arguments; the region leaves the layer mean and the layer stacks of them (Proof/PoolArrays.lean, over
     the body's stored values of Proof/PoolBody.lean); the reference's stages are the same functions
     (Proof/PoolRef.lean), the mean by the one law `(0 + (e + a + a + a)) / 4 = (e + 3 * a) * (1/4)`, which
     holds for all extended reals (Proof/MeanLaw.lean): the precondition is never opened. -/
import proofs.«110384_j7095285973816_1_alg».proof.Defs
import proofs.«110384_j7095285973816_1_alg».proof.Proof.Gen.Kernel
import proofs.«110384_j7095285973816_1_alg».proof.Proof.Gen.Kernel.Frame
import proofs.«110384_j7095285973816_1_alg».proof.Proof.Gen.KernelIdeal
import proofs.«110384_j7095285973816_1_alg».proof.Proof.Gen.KernelIdeal.Frame
import proofs.«110384_j7095285973816_1_alg».proof.Proof.Gen.ReferenceIdeal
import proofs.«110384_j7095285973816_1_alg».proof.Proof.Gen.Pre_finite_inputs
import proofs.«110384_j7095285973816_1_alg».proof.Proof.PoolBridge
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, with the four results dropped. -/
theorem frame_reference : Cert.frame_ReferenceIdeal := fun m ρ _ =>
  (θ_run Cert.ReferenceIdeal.defs _ _).mono (fun _ h c => (h c).2.2.2.2) (Cert.ReferenceIdeal.PoolRun.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, Cert.Proof.Pool.algebraic⟩

end Cert.Proof

end
